-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1200000 : Shape := ⟨2, ![2, 1200000]⟩
abbrev S2x100000 : Shape := ⟨2, ![2, 100000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg7 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg7
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x64 .f32) (main_arg1 : IVec S2x1200000 32) (main_arg2 : IVec S2x100000 32) (main_arg3 : IVec S2x100000 32) (main_arg4 : FVec F S64x64 .f32) (main_arg5 : FVec F S64 .f32) (main_arg6 : FVec F S64x64 .f32) (main_arg7 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg4
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg5
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg6
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg7 main_v13 main_v16
-- ==== Kernel.lean ====
abbrev S100000x64 : Shape := ⟨2, ![100000, 64]⟩
abbrev S2x1200000 : Shape := ⟨2, ![2, 1200000]⟩
abbrev S2x100000 : Shape := ⟨2, ![2, 100000]⟩
abbrev S64x64 : Shape := ⟨2, ![64, 64]⟩
abbrev S64 : Shape := ⟨1, ![64]⟩
abbrev S100000 : Shape := ⟨1, ![100000]⟩
abbrev S1x1200000 : Shape := ⟨2, ![1, 1200000]⟩
abbrev S1200000 : Shape := ⟨1, ![1200000]⟩
abbrev S1300000 : Shape := ⟨1, ![1300000]⟩
abbrev S_ : Shape := ⟨0, ![]⟩
abbrev S1300000x1 : Shape := ⟨2, ![1300000, 1]⟩
abbrev S10000x64 : Shape := ⟨2, ![10000, 64]⟩
abbrev S1300000x64 : Shape := ⟨2, ![1300000, 64]⟩
abbrev S1x64 : Shape := ⟨2, ![1, 64]⟩
abbrev S2x200000 : Shape := ⟨2, ![2, 200000]⟩
abbrev S1x200000 : Shape := ⟨2, ![1, 200000]⟩
abbrev S200000 : Shape := ⟨1, ![200000]⟩
abbrev S200000x1 : Shape := ⟨2, ![200000, 1]⟩
abbrev S200000x64 : Shape := ⟨2, ![200000, 64]⟩
abbrev S20000x64 : Shape := ⟨2, ![20000, 64]⟩
abbrev S20000x1 : Shape := ⟨2, ![20000, 1]⟩
abbrev S20000 : Shape := ⟨1, ![20000]⟩

abbrev nBuf : Space → Nat
  | .hbm => 114
  | .vmem => 26
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S2x100000, .i32⟩
  | .hbm, ⟨3, _⟩ => ⟨S2x100000, .i32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S100000, .i32⟩
  | .hbm, ⟨9, _⟩ => ⟨S1x1200000, .i32⟩
  | .hbm, ⟨10, _⟩ => ⟨S1200000, .i32⟩
  | .hbm, ⟨11, _⟩ => ⟨S1300000, .i32⟩
  | .hbm, ⟨12, _⟩ => ⟨S1x1200000, .i32⟩
  | .hbm, ⟨13, _⟩ => ⟨S1200000, .i32⟩
  | .hbm, ⟨14, _⟩ => ⟨S1300000, .i32⟩
  | .hbm, ⟨15, _⟩ => ⟨S_, .f32⟩
  | .hbm, ⟨16, _⟩ => ⟨S1300000, .f32⟩
  | .hbm, ⟨17, _⟩ => ⟨S_, .f32⟩
  | .hbm, ⟨18, _⟩ => ⟨S100000, .f32⟩
  | .hbm, ⟨19, _⟩ => ⟨S1300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1300000, .i32⟩
  | .hbm, ⟨34, _⟩ => ⟨S1300000, .i1⟩
  | .hbm, ⟨35, _⟩ => ⟨S_, .i32⟩
  | .hbm, ⟨36, _⟩ => ⟨S1300000, .i32⟩
  | .hbm, ⟨37, _⟩ => ⟨S1300000, .i32⟩
  | .hbm, ⟨38, _⟩ => ⟨S1300000, .i32⟩
  | .hbm, ⟨39, _⟩ => ⟨S1300000x1, .i32⟩
  | .hbm, ⟨40, _⟩ => ⟨S1300000, .f32⟩
  | .hbm, ⟨41, _⟩ => ⟨S_, .i32⟩
  | .hbm, ⟨42, _⟩ => ⟨S1300000, .i32⟩
  | .hbm, ⟨43, _⟩ => ⟨S1300000, .i1⟩
  | .hbm, ⟨44, _⟩ => ⟨S_, .i32⟩
  | .hbm, ⟨45, _⟩ => ⟨S1300000, .i32⟩
  | .hbm, ⟨46, _⟩ => ⟨S1300000, .i32⟩
  | .hbm, ⟨47, _⟩ => ⟨S1300000, .i32⟩
  | .hbm, ⟨48, _⟩ => ⟨S1300000x1, .i32⟩
  | .hbm, ⟨49, _⟩ => ⟨S1300000, .f32⟩
  | .hbm, ⟨50, _⟩ => ⟨S1300000, .f32⟩
  | .hbm, ⟨51, _⟩ => ⟨S100000x64, .f32⟩
  | .hbm, ⟨52, _⟩ => ⟨S_, .i32⟩
  | .hbm, ⟨53, _⟩ => ⟨S1300000, .i32⟩
  | .hbm, ⟨54, _⟩ => ⟨S1300000, .i1⟩
  | .hbm, ⟨55, _⟩ => ⟨S_, .i32⟩
  | .hbm, ⟨56, _⟩ => ⟨S1300000, .i32⟩
  | .hbm, ⟨57, _⟩ => ⟨S1300000, .i32⟩
  | .hbm, ⟨58, _⟩ => ⟨S1300000, .i32⟩
  | .hbm, ⟨59, _⟩ => ⟨S1300000x1, .i32⟩
  | .hbm, ⟨60, _⟩ => ⟨S1300000x64, .f32⟩
  | .hbm, ⟨61, _⟩ => ⟨S1300000x1, .f32⟩
  | .hbm, ⟨62, _⟩ => ⟨S1300000x64, .f32⟩
  | .hbm, ⟨63, _⟩ => ⟨S1300000x64, .f32⟩
  | .hbm, ⟨64, _⟩ => ⟨S_, .f32⟩
  | .hbm, ⟨65, _⟩ => ⟨S100000x64, .f32⟩
  | .hbm, ⟨66, _⟩ => ⟨S1300000x1, .i32⟩
  | .hbm, ⟨67, _⟩ => ⟨S100000x64, .f32⟩
  | .hbm, ⟨68, _⟩ => ⟨S1x64, .f32⟩
  | .hbm, ⟨69, _⟩ => ⟨S100000x64, .f32⟩
  | .hbm, ⟨70, _⟩ => ⟨S100000x64, .f32⟩
  | .hbm, ⟨71, _⟩ => ⟨S_, .i32⟩
  | .hbm, ⟨72, _⟩ => ⟨S1300000, .i32⟩
  | .hbm, ⟨73, _⟩ => ⟨S1300000, .i1⟩
  | .hbm, ⟨74, _⟩ => ⟨S_, .i32⟩
  | .hbm, ⟨75, _⟩ => ⟨S1300000, .i32⟩
  | .hbm, ⟨76, _⟩ => ⟨S1300000, .i32⟩
  | .hbm, ⟨77, _⟩ => ⟨S1300000, .i32⟩
  | .hbm, ⟨78, _⟩ => ⟨S1300000x1, .i32⟩
  | .hbm, ⟨79, _⟩ => ⟨S1300000x64, .f32⟩
  | .hbm, ⟨80, _⟩ => ⟨S1300000x1, .f32⟩
  | .hbm, ⟨81, _⟩ => ⟨S1300000x64, .f32⟩
  | .hbm, ⟨82, _⟩ => ⟨S1300000x64, .f32⟩
  | .hbm, ⟨83, _⟩ => ⟨S_, .f32⟩
  | .hbm, ⟨84, _⟩ => ⟨S100000x64, .f32⟩
  | .hbm, ⟨85, _⟩ => ⟨S1300000x1, .i32⟩
  | .hbm, ⟨86, _⟩ => ⟨S100000x64, .f32⟩
  | .hbm, ⟨87, _⟩ => ⟨S1x64, .f32⟩
  | .hbm, ⟨88, _⟩ => ⟨S100000x64, .f32⟩
  | .hbm, ⟨89, _⟩ => ⟨S2x200000, .i32⟩
  | .hbm, ⟨90, _⟩ => ⟨S1x200000, .i32⟩
  | .hbm, ⟨91, _⟩ => ⟨S200000, .i32⟩
  | .hbm, ⟨92, _⟩ => ⟨S_, .i32⟩
  | .hbm, ⟨93, _⟩ => ⟨S200000, .i32⟩
  | .hbm, ⟨94, _⟩ => ⟨S200000, .i1⟩
  | .hbm, ⟨95, _⟩ => ⟨S_, .i32⟩
  | .hbm, ⟨96, _⟩ => ⟨S200000, .i32⟩
  | .hbm, ⟨97, _⟩ => ⟨S200000, .i32⟩
  | .hbm, ⟨98, _⟩ => ⟨S200000, .i32⟩
  | .hbm, ⟨99, _⟩ => ⟨S200000x1, .i32⟩
  | .hbm, ⟨100, _⟩ => ⟨S200000x64, .f32⟩
  | .hbm, ⟨101, _⟩ => ⟨S1x200000, .i32⟩
  | .hbm, ⟨102, _⟩ => ⟨S200000, .i32⟩
  | .hbm, ⟨103, _⟩ => ⟨S_, .i32⟩
  | .hbm, ⟨104, _⟩ => ⟨S200000, .i32⟩
  | .hbm, ⟨105, _⟩ => ⟨S200000, .i1⟩
  | .hbm, ⟨106, _⟩ => ⟨S_, .i32⟩
  | .hbm, ⟨107, _⟩ => ⟨S200000, .i32⟩
  | .hbm, ⟨108, _⟩ => ⟨S200000, .i32⟩
  | .hbm, ⟨109, _⟩ => ⟨S200000, .i32⟩
  | .hbm, ⟨110, _⟩ => ⟨S200000x1, .i32⟩
  | .hbm, ⟨111, _⟩ => ⟨S200000x64, .f32⟩
  | .hbm, ⟨112, _⟩ => ⟨S200000x1, .f32⟩
  | .hbm, ⟨113, _⟩ => ⟨S200000, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S1x64, .f32⟩
  | .local _ .vmem, ⟨18, _⟩ => ⟨S10000x64, .f32⟩
  | .local _ .vmem, ⟨19, _⟩ => ⟨S10000x64, .f32⟩
  | .local _ .vmem, ⟨20, _⟩ => ⟨S20000x64, .f32⟩
  | .local _ .vmem, ⟨21, _⟩ => ⟨S20000x64, .f32⟩
  | .local _ .vmem, ⟨22, _⟩ => ⟨S20000x64, .f32⟩
  | .local _ .vmem, ⟨23, _⟩ => ⟨S20000x64, .f32⟩
  | .local _ .vmem, ⟨24, _⟩ => ⟨S20000x1, .f32⟩
  | .local _ .vmem, ⟨25, _⟩ => ⟨S20000x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_c_10 : Ref sig .tc := ⟨.hbm, 71, rfl⟩
abbrev main_v49 : Ref sig .tc := ⟨.hbm, 72, rfl⟩
abbrev main_v50 : Ref sig .tc := ⟨.hbm, 73, rfl⟩
abbrev main_c_11 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_c_13 : Ref sig .tc := ⟨.hbm, 92, rfl⟩
abbrev main_v67 : Ref sig .tc := ⟨.hbm, 93, rfl⟩
abbrev main_v68 : Ref sig .tc := ⟨.hbm, 94, rfl⟩
abbrev main_c_14 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_c_15 : Ref sig .tc := ⟨.hbm, 103, rfl⟩
abbrev main_v76 : Ref sig .tc := ⟨.hbm, 104, rfl⟩
abbrev main_v77 : Ref sig .tc := ⟨.hbm, 105, rfl⟩
abbrev main_c_16 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg1_1 : Ref sig .tc := ⟨.vmem, 23, rfl⟩
abbrev cc4_stg2_0 : Ref sig .tc := ⟨.vmem, 24, rfl⟩
abbrev cc4_stg2_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem1_1 : DmaSem sig := 23
abbrev cc4_sem2_0 : DmaSem sig := 24
abbrev cc4_sem2_1 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S20000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S20000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S20000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  slices_S2x1200000_S1x1200000_0_0 : S2x1200000.Slices ![0, 0] S1x1200000
  shapeCasts_S1x1200000_S1200000 : S1x1200000.ShapeCasts S1200000
  concatenates_S1200000_S100000_S1300000_d0 : Shape.Concatenates [S1200000, S100000] S1300000 0
  slices_S2x1200000_S1x1200000_1_0 : S2x1200000.Slices ![1, 0] S1x1200000
  bcast_S_S1300000 : S_.BroadcastsInDim S1300000 (![] : Fin 0 → Fin S1300000.rank)
  bcast_S_S100000 : S_.BroadcastsInDim S100000 (![] : Fin 0 → Fin S100000.rank)
  bcast_S1300000_S1300000x1_0 : S1300000.BroadcastsInDim S1300000x1 (![0] : Fin 1 → Fin S1300000x1.rank)
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S1300000x1_S1300000x64_0_1 : S1300000x1.BroadcastsInDim S1300000x64 (![0, 1] : Fin 2 → Fin S1300000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  concatenates_S2x100000_S2x100000_S2x200000_d1 : Shape.Concatenates [S2x100000, S2x100000] S2x200000 1
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S2x200000_S1x200000_1_0 : S2x200000.Slices ![1, 0] S1x200000
  inb_S20000x64_S20000x64_0_0 : ∀ a, (![0, 0] : Fin 2 → Nat) a + S20000x64.size a ≤ S20000x64.size a
  h_S20000x64 : 0 < S20000x64.numel
  shapeCasts_S20000x64_S20000x64 : S20000x64.ShapeCasts S20000x64
  reduces_S20000x64_S20000 : S20000x64.Reduces [1] S20000
  shapeCasts_S20000_S20000x1 : S20000.ShapeCasts S20000x1
  inb_S20000x1_S20000x1_0_0 : ∀ a, (![0, 0] : Fin 2 → Nat) a + S20000x1.size a ≤ S20000x1.size a
  h_S20000x1 : 0 < S20000x1.numel
  shapeCasts_S200000x1_S200000 : S200000x1.ShapeCasts S200000
  scatter_S100000_S1300000x1_S1300000_n_0_0_1_wf : ScatterDims.WF S100000 S1300000x1 S1300000 [] [0] [0] 1
  gather_S100000_S1300000x1_S1300000_n_0_n_n_0_1_1_wf : GatherDims.WF S100000 S1300000x1 S1300000 [] [0] [] [0] [] 1 ![1]
  dot_S10000x64_S64x64_S10000x64_1_0_0_1_n_n_wf : DotDims.WF S10000x64 S64x64 S10000x64 [1] [0] [0] [1] [] []
  gather_S100000x64_S1300000x1_S1300000x64_1_0_n_n_0_1_164_wf : GatherDims.WF S100000x64 S1300000x1 S1300000x64 [1] [0] [] [0] [] 1 ![1, 64]
  scatter_S100000x64_S1300000x1_S1300000x64_1_0_0_1_wf : ScatterDims.WF S100000x64 S1300000x1 S1300000x64 [1] [0] [0] 1
  gather_S100000x64_S200000x1_S200000x64_1_0_n_n_0_1_164_wf : GatherDims.WF S100000x64 S200000x1 S200000x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S20000x64.size a ≤ S200000x64.size a
  hwx4_0 : ∀ i : grid4.Coords, EltTy.bits .f32 = 32 ∨ (Rect.block (s := S200000x64) S20000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S20000x64.size a ≤ S200000x64.size a
  hwx4_1 : ∀ i : grid4.Coords, EltTy.bits .f32 = 32 ∨ (Rect.block (s := S200000x64) S20000x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S20000x1.size a ≤ S200000x1.size a
  hwx4_2 : ∀ i : grid4.Coords, EltTy.bits .f32 = 32 ∨ (Rect.block (s := S200000x1) S20000x1.size (cc4_transform_2 i) (hinb4_2 i)).WholeWords (EltTy.packing .f32)

variable [Facts₀]

def scatter_S100000_S1300000x1_S1300000_n_0_0_1 : ScatterDims S100000 S1300000x1 S1300000 where
  updateWindowDims := []
  insertedWindowDims := [0]
  scatterDimsToOperandDims := [0]
  indexVectorDim := 1
  wf := scatter_S100000_S1300000x1_S1300000_n_0_0_1_wf
def gather_S100000_S1300000x1_S1300000_n_0_n_n_0_1_1 : GatherDims S100000 S1300000x1 S1300000 where
  offsetDims := []
  collapsedSliceDims := [0]
  operandBatchingDims := []
  startIndicesBatchingDims := []
  startIndexMap := [0]
  indexVectorDim := 1
  sliceSizes := ![1]
  wf := gather_S100000_S1300000x1_S1300000_n_0_n_n_0_1_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1300000x1_S1300000x64_1_0_n_n_0_1_164 : GatherDims S100000x64 S1300000x1 S1300000x64 where
  offsetDims := [1]
  collapsedSliceDims := [0]
  operandBatchingDims := []
  startIndicesBatchingDims := []
  startIndexMap := [0]
  indexVectorDim := 1
  sliceSizes := ![1, 64]
  wf := gather_S100000x64_S1300000x1_S1300000x64_1_0_n_n_0_1_164_wf
def scatter_S100000x64_S1300000x1_S1300000x64_1_0_0_1 : ScatterDims S100000x64 S1300000x1 S1300000x64 where
  updateWindowDims := [1]
  insertedWindowDims := [0]
  scatterDimsToOperandDims := [0]
  indexVectorDim := 1
  wf := scatter_S100000x64_S1300000x1_S1300000x64_1_0_0_1_wf
def gather_S100000x64_S200000x1_S200000x64_1_0_n_n_0_1_164 : GatherDims S100000x64 S200000x1 S200000x64 where
  offsetDims := [1]
  collapsedSliceDims := [0]
  operandBatchingDims := []
  startIndicesBatchingDims := []
  startIndexMap := [0]
  indexVectorDim := 1
  sliceSizes := ![1, 64]
  wf := gather_S100000x64_S200000x1_S200000x64_1_0_n_n_0_1_164_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v73) S20000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v82) S20000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v83) S20000x1.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S100000x64 : Shape := ⟨2, ![100000, 64]⟩
abbrev S2x1200000 : Shape := ⟨2, ![2, 1200000]⟩
abbrev S2x100000 : Shape := ⟨2, ![2, 100000]⟩
abbrev S64x64 : Shape := ⟨2, ![64, 64]⟩
abbrev S64 : Shape := ⟨1, ![64]⟩
abbrev S100000 : Shape := ⟨1, ![100000]⟩
abbrev S1x1200000 : Shape := ⟨2, ![1, 1200000]⟩
abbrev S1200000 : Shape := ⟨1, ![1200000]⟩
abbrev S1300000 : Shape := ⟨1, ![1300000]⟩
abbrev S_ : Shape := ⟨0, ![]⟩
abbrev S1300000x1 : Shape := ⟨2, ![1300000, 1]⟩
abbrev S1300000x64 : Shape := ⟨2, ![1300000, 64]⟩
abbrev S1x64 : Shape := ⟨2, ![1, 64]⟩
abbrev S2x200000 : Shape := ⟨2, ![2, 200000]⟩
abbrev S1x200000 : Shape := ⟨2, ![1, 200000]⟩
abbrev S200000 : Shape := ⟨1, ![200000]⟩
abbrev S200000x1 : Shape := ⟨2, ![200000, 1]⟩
abbrev S200000x64 : Shape := ⟨2, ![200000, 64]⟩

abbrev nBuf : Space → Nat
  | .hbm => 120
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S2x100000, .i32⟩
  | .hbm, ⟨3, _⟩ => ⟨S2x100000, .i32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S100000, .i32⟩
  | .hbm, ⟨9, _⟩ => ⟨S1x1200000, .i32⟩
  | .hbm, ⟨10, _⟩ => ⟨S1200000, .i32⟩
  | .hbm, ⟨11, _⟩ => ⟨S1300000, .i32⟩
  | .hbm, ⟨12, _⟩ => ⟨S1x1200000, .i32⟩
  | .hbm, ⟨13, _⟩ => ⟨S1200000, .i32⟩
  | .hbm, ⟨14, _⟩ => ⟨S1300000, .i32⟩
  | .hbm, ⟨15, _⟩ => ⟨S_, .f32⟩
  | .hbm, ⟨16, _⟩ => ⟨S1300000, .f32⟩
  | .hbm, ⟨17, _⟩ => ⟨S_, .f32⟩
  | .hbm, ⟨18, _⟩ => ⟨S100000, .f32⟩
  | .hbm, ⟨19, _⟩ => ⟨S1300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1300000, .i32⟩
  | .hbm, ⟨34, _⟩ => ⟨S1300000, .i1⟩
  | .hbm, ⟨35, _⟩ => ⟨S_, .i32⟩
  | .hbm, ⟨36, _⟩ => ⟨S1300000, .i32⟩
  | .hbm, ⟨37, _⟩ => ⟨S1300000, .i32⟩
  | .hbm, ⟨38, _⟩ => ⟨S1300000, .i32⟩
  | .hbm, ⟨39, _⟩ => ⟨S1300000x1, .i32⟩
  | .hbm, ⟨40, _⟩ => ⟨S1300000, .f32⟩
  | .hbm, ⟨41, _⟩ => ⟨S_, .i32⟩
  | .hbm, ⟨42, _⟩ => ⟨S1300000, .i32⟩
  | .hbm, ⟨43, _⟩ => ⟨S1300000, .i1⟩
  | .hbm, ⟨44, _⟩ => ⟨S_, .i32⟩
  | .hbm, ⟨45, _⟩ => ⟨S1300000, .i32⟩
  | .hbm, ⟨46, _⟩ => ⟨S1300000, .i32⟩
  | .hbm, ⟨47, _⟩ => ⟨S1300000, .i32⟩
  | .hbm, ⟨48, _⟩ => ⟨S1300000x1, .i32⟩
  | .hbm, ⟨49, _⟩ => ⟨S1300000, .f32⟩
  | .hbm, ⟨50, _⟩ => ⟨S1300000, .f32⟩
  | .hbm, ⟨51, _⟩ => ⟨S100000x64, .f32⟩
  | .hbm, ⟨52, _⟩ => ⟨S_, .i32⟩
  | .hbm, ⟨53, _⟩ => ⟨S1300000, .i32⟩
  | .hbm, ⟨54, _⟩ => ⟨S1300000, .i1⟩
  | .hbm, ⟨55, _⟩ => ⟨S_, .i32⟩
  | .hbm, ⟨56, _⟩ => ⟨S1300000, .i32⟩
  | .hbm, ⟨57, _⟩ => ⟨S1300000, .i32⟩
  | .hbm, ⟨58, _⟩ => ⟨S1300000, .i32⟩
  | .hbm, ⟨59, _⟩ => ⟨S1300000x1, .i32⟩
  | .hbm, ⟨60, _⟩ => ⟨S1300000x64, .f32⟩
  | .hbm, ⟨61, _⟩ => ⟨S1300000x1, .f32⟩
  | .hbm, ⟨62, _⟩ => ⟨S1300000x64, .f32⟩
  | .hbm, ⟨63, _⟩ => ⟨S1300000x64, .f32⟩
  | .hbm, ⟨64, _⟩ => ⟨S_, .f32⟩
  | .hbm, ⟨65, _⟩ => ⟨S100000x64, .f32⟩
  | .hbm, ⟨66, _⟩ => ⟨S1300000x1, .i32⟩
  | .hbm, ⟨67, _⟩ => ⟨S100000x64, .f32⟩
  | .hbm, ⟨68, _⟩ => ⟨S1x64, .f32⟩
  | .hbm, ⟨69, _⟩ => ⟨S100000x64, .f32⟩
  | .hbm, ⟨70, _⟩ => ⟨S100000x64, .f32⟩
  | .hbm, ⟨71, _⟩ => ⟨S_, .f32⟩
  | .hbm, ⟨72, _⟩ => ⟨S100000x64, .f32⟩
  | .hbm, ⟨73, _⟩ => ⟨S100000x64, .f32⟩
  | .hbm, ⟨74, _⟩ => ⟨S100000x64, .f32⟩
  | .hbm, ⟨75, _⟩ => ⟨S_, .i32⟩
  | .hbm, ⟨76, _⟩ => ⟨S1300000, .i32⟩
  | .hbm, ⟨77, _⟩ => ⟨S1300000, .i1⟩
  | .hbm, ⟨78, _⟩ => ⟨S_, .i32⟩
  | .hbm, ⟨79, _⟩ => ⟨S1300000, .i32⟩
  | .hbm, ⟨80, _⟩ => ⟨S1300000, .i32⟩
  | .hbm, ⟨81, _⟩ => ⟨S1300000, .i32⟩
  | .hbm, ⟨82, _⟩ => ⟨S1300000x1, .i32⟩
  | .hbm, ⟨83, _⟩ => ⟨S1300000x64, .f32⟩
  | .hbm, ⟨84, _⟩ => ⟨S1300000x1, .f32⟩
  | .hbm, ⟨85, _⟩ => ⟨S1300000x64, .f32⟩
  | .hbm, ⟨86, _⟩ => ⟨S1300000x64, .f32⟩
  | .hbm, ⟨87, _⟩ => ⟨S_, .f32⟩
  | .hbm, ⟨88, _⟩ => ⟨S100000x64, .f32⟩
  | .hbm, ⟨89, _⟩ => ⟨S1300000x1, .i32⟩
  | .hbm, ⟨90, _⟩ => ⟨S100000x64, .f32⟩
  | .hbm, ⟨91, _⟩ => ⟨S1x64, .f32⟩
  | .hbm, ⟨92, _⟩ => ⟨S100000x64, .f32⟩
  | .hbm, ⟨93, _⟩ => ⟨S100000x64, .f32⟩
  | .hbm, ⟨94, _⟩ => ⟨S2x200000, .i32⟩
  | .hbm, ⟨95, _⟩ => ⟨S1x200000, .i32⟩
  | .hbm, ⟨96, _⟩ => ⟨S200000, .i32⟩
  | .hbm, ⟨97, _⟩ => ⟨S_, .i32⟩
  | .hbm, ⟨98, _⟩ => ⟨S200000, .i32⟩
  | .hbm, ⟨99, _⟩ => ⟨S200000, .i1⟩
  | .hbm, ⟨100, _⟩ => ⟨S_, .i32⟩
  | .hbm, ⟨101, _⟩ => ⟨S200000, .i32⟩
  | .hbm, ⟨102, _⟩ => ⟨S200000, .i32⟩
  | .hbm, ⟨103, _⟩ => ⟨S200000, .i32⟩
  | .hbm, ⟨104, _⟩ => ⟨S200000x1, .i32⟩
  | .hbm, ⟨105, _⟩ => ⟨S200000x64, .f32⟩
  | .hbm, ⟨106, _⟩ => ⟨S1x200000, .i32⟩
  | .hbm, ⟨107, _⟩ => ⟨S200000, .i32⟩
  | .hbm, ⟨108, _⟩ => ⟨S_, .i32⟩
  | .hbm, ⟨109, _⟩ => ⟨S200000, .i32⟩
  | .hbm, ⟨110, _⟩ => ⟨S200000, .i1⟩
  | .hbm, ⟨111, _⟩ => ⟨S_, .i32⟩
  | .hbm, ⟨112, _⟩ => ⟨S200000, .i32⟩
  | .hbm, ⟨113, _⟩ => ⟨S200000, .i32⟩
  | .hbm, ⟨114, _⟩ => ⟨S200000, .i32⟩
  | .hbm, ⟨115, _⟩ => ⟨S200000x1, .i32⟩
  | .hbm, ⟨116, _⟩ => ⟨S200000x64, .f32⟩
  | .hbm, ⟨117, _⟩ => ⟨S200000x64, .f32⟩
  | .hbm, ⟨118, _⟩ => ⟨S_, .f32⟩
  | .hbm, ⟨119, _⟩ => ⟨S200000, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_c_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_12 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_c_13 : Ref sig .tc := ⟨.hbm, 97, rfl⟩
abbrev main_v70 : Ref sig .tc := ⟨.hbm, 98, rfl⟩
abbrev main_v71 : Ref sig .tc := ⟨.hbm, 99, rfl⟩
abbrev main_c_14 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_c_15 : Ref sig .tc := ⟨.hbm, 108, rfl⟩
abbrev main_v79 : Ref sig .tc := ⟨.hbm, 109, rfl⟩
abbrev main_v80 : Ref sig .tc := ⟨.hbm, 110, rfl⟩
abbrev main_c_16 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_cst_17 : Ref sig .tc := ⟨.hbm, 118, rfl⟩
abbrev main_v87 : Ref sig .tc := ⟨.hbm, 119, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  concatenates_S1200000_S100000_S1300000_d0 : Shape.Concatenates [S1200000, S100000] S1300000 0
  slices_S2x1200000_S1x1200000_1_0 : S2x1200000.Slices ![1, 0] S1x1200000
  bcast_S_S1300000 : S_.BroadcastsInDim S1300000 (![] : Fin 0 → Fin S1300000.rank)
  bcast_S_S100000 : S_.BroadcastsInDim S100000 (![] : Fin 0 → Fin S100000.rank)
  bcast_S1300000_S1300000x1_0 : S1300000.BroadcastsInDim S1300000x1 (![0] : Fin 1 → Fin S1300000x1.rank)
  bcast_S1300000x1_S1300000x64_0_1 : S1300000x1.BroadcastsInDim S1300000x64 (![0, 1] : Fin 2 → Fin S1300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  concatenates_S2x100000_S2x100000_S2x200000_d1 : Shape.Concatenates [S2x100000, S2x100000] S2x200000 1
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S2x200000_S1x200000_1_0 : S2x200000.Slices ![1, 0] S1x200000
  reducesTo_S200000x64_S200000_d1 : S200000x64.ReducesTo [1] S200000
  h_S_ : 0 < S_.numel
  scatter_S100000_S1300000x1_S1300000_n_0_0_1_wf : ScatterDims.WF S100000 S1300000x1 S1300000 [] [0] [0] 1
  gather_S100000_S1300000x1_S1300000_n_0_n_n_0_1_1_wf : GatherDims.WF S100000 S1300000x1 S1300000 [] [0] [] [0] [] 1 ![1]
  dot_S100000x64_S64x64_S100000x64_1_0_0_1_n_n_wf : DotDims.WF S100000x64 S64x64 S100000x64 [1] [0] [0] [1] [] []
  gather_S100000x64_S1300000x1_S1300000x64_1_0_n_n_0_1_164_wf : GatherDims.WF S100000x64 S1300000x1 S1300000x64 [1] [0] [] [0] [] 1 ![1, 64]
  scatter_S100000x64_S1300000x1_S1300000x64_1_0_0_1_wf : ScatterDims.WF S100000x64 S1300000x1 S1300000x64 [1] [0] [0] 1
  gather_S100000x64_S200000x1_S200000x64_1_0_n_n_0_1_164_wf : GatherDims.WF S100000x64 S200000x1 S200000x64 [1] [0] [] [0] [] 1 ![1, 64]

variable [Facts₀]

def scatter_S100000_S1300000x1_S1300000_n_0_0_1 : ScatterDims S100000 S1300000x1 S1300000 where
  updateWindowDims := []
  insertedWindowDims := [0]
  scatterDimsToOperandDims := [0]
  indexVectorDim := 1
  wf := scatter_S100000_S1300000x1_S1300000_n_0_0_1_wf
def gather_S100000_S1300000x1_S1300000_n_0_n_n_0_1_1 : GatherDims S100000 S1300000x1 S1300000 where
  offsetDims := []
  collapsedSliceDims := [0]
  operandBatchingDims := []
  startIndicesBatchingDims := []
  startIndexMap := [0]
  indexVectorDim := 1
  sliceSizes := ![1]
  wf := gather_S100000_S1300000x1_S1300000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1300000x1_S1300000x64_1_0_n_n_0_1_164 : GatherDims S100000x64 S1300000x1 S1300000x64 where
  offsetDims := [1]
  collapsedSliceDims := [0]
  operandBatchingDims := []
  startIndicesBatchingDims := []
  startIndexMap := [0]
  indexVectorDim := 1
  sliceSizes := ![1, 64]
  wf := gather_S100000x64_S1300000x1_S1300000x64_1_0_n_n_0_1_164_wf
def scatter_S100000x64_S1300000x1_S1300000x64_1_0_0_1 : ScatterDims S100000x64 S1300000x1 S1300000x64 where
  updateWindowDims := [1]
  insertedWindowDims := [0]
  scatterDimsToOperandDims := [0]
  indexVectorDim := 1
  wf := scatter_S100000x64_S1300000x1_S1300000x64_1_0_0_1_wf
def gather_S100000x64_S200000x1_S200000x64_1_0_n_n_0_1_164 : GatherDims S100000x64 S200000x1 S200000x64 where
  offsetDims := [1]
  collapsedSliceDims := [0]
  operandBatchingDims := []
  startIndicesBatchingDims := []
  startIndexMap := [0]
  indexVectorDim := 1
  sliceSizes := ![1, 64]
  wf := gather_S100000x64_S200000x1_S200000x64_1_0_n_n_0_1_164_wf

class Facts : Prop extends Facts₀ where

variable [Facts]
-- ==== Proof.Chain.lean ====
/-
  The host operations both programs share, each group named once as a function of what it reads, so that the
  two sides of the certificate apply the same terms to their intermediate arrays.

  The graph part: the [2, 1200000] edge array gives a source row and a destination row; one self loop per node
  (0 … 99999) is appended to each (1300000 entries). A node's degree is the number of entries of the
  destination row naming it; `dis` is degree^(-1/2) where the degree is positive and 0 elsewhere; an entry's
  weight is `dis` at its source times `dis` at its destination (an index below zero is read from the end).
  One message-passing step gathers the rows of a [100000, 64] feature array at the sources, scales each by its
  entry's weight and adds it into the row of its destination, starting from zero.
  The decode part: the positive and negative pair lists are laid side by side (200000 pairs), and the feature
  rows of each pair's two endpoints are gathered.
-/
import proofs.«134592_j20529943675093_1_alg».proof.Proof.Gen.KernelIdeal

noncomputable section

namespace Cert.KernelIdeal.Chain

open Cert.KernelIdeal Cert.KernelIdeal.Gen
open Idealize.ShloMosaic Idealize.SL.Sem

variable {F : FTy → Type} [FloatOps F]

/-- The source row of the edge array followed by one self loop per node. -/
def srcOf (e : (⟨S2x1200000, .i32⟩ : BufTy).Contents (Elt F)) : (⟨S1300000, .i32⟩ : BufTy).Contents (Elt F) :=
  concatenate S1300000 0 [⟨S1200000, shapeCast S1200000 (extractStridedSlice S1x1200000 ![0, 0] e slices_S2x1200000_S1x1200000_0_0) shapeCasts_S1x1200000_S1200000⟩, ⟨S100000, iotaInDim S100000 32 0⟩] concatenates_S1200000_S100000_S1300000_d0

/-- The destination row of the edge array followed by one self loop per node. -/
def dstOf (e : (⟨S2x1200000, .i32⟩ : BufTy).Contents (Elt F)) : (⟨S1300000, .i32⟩ : BufTy).Contents (Elt F) :=
  concatenate S1300000 0 [⟨S1200000, shapeCast S1200000 (extractStridedSlice S1x1200000 ![1, 0] e slices_S2x1200000_S1x1200000_1_0) shapeCasts_S1x1200000_S1200000⟩, ⟨S100000, iotaInDim S100000 32 0⟩] concatenates_S1200000_S100000_S1300000_d0

/-- Each node's degree: ones added at the destinations, from zero. -/
def degOf (dst : (⟨S1300000, .i32⟩ : BufTy).Contents (Elt F)) : (⟨S100000, .f32⟩ : BufTy).Contents (Elt F) :=
  Host.scatterAdd scatter_S100000_S1300000x1_S1300000_n_0_0_1
    (broadcastInDim S100000 ![] bcast_S_S100000 (constant S_ .f32 0x00000000#32))
    (broadcastInDim S1300000x1 ![0] bcast_S1300000_S1300000x1_0 dst)
    (broadcastInDim S1300000 ![] bcast_S_S1300000 (constant S_ .f32 0x3F800000#32))

/-- Degree^(-1/2) where the degree is positive (taken of max (degree, 1)), zero elsewhere. -/
def disOf (deg : (⟨S100000, .f32⟩ : BufTy).Contents (Elt F)) : (⟨S100000, .f32⟩ : BufTy).Contents (Elt F) :=
  select (cmpf .ogt deg (broadcastInDim S100000 ![] bcast_S_S100000 (constant S_ .f32 0x00000000#32)))
    (Host.rsqrt (maximumf deg (broadcastInDim S100000 ![] bcast_S_S100000 (constant S_ .f32 0x3F800000#32))))
    (broadcastInDim S100000 ![] bcast_S_S100000 (id (constant S_ .f32 0x00000000#32)))

/-- An index list as a column of gather indices, an index below zero moved up by the node count. -/
def wrapCol (i : (⟨S1300000, .i32⟩ : BufTy).Contents (Elt F)) : (⟨S1300000x1, .i32⟩ : BufTy).Contents (Elt F) :=
  broadcastInDim S1300000x1 ![0] bcast_S1300000_S1300000x1_0
    (select (cmpi .slt i (broadcastInDim S1300000 ![] bcast_S_S1300000 (constantI S_ 32 0#32)))
      (addi i (broadcastInDim S1300000 ![] bcast_S_S1300000 (constantI S_ 32 100000#32))) i)

/-- Each entry's weight: `dis` at its source times `dis` at its destination. -/
def normOf (src dst : (⟨S1300000, .i32⟩ : BufTy).Contents (Elt F)) (dis : (⟨S100000, .f32⟩ : BufTy).Contents (Elt F)) :
    (⟨S1300000, .f32⟩ : BufTy).Contents (Elt F) :=
  mulf (Host.gather gather_S100000_S1300000x1_S1300000_n_0_n_n_0_1_1 dis (wrapCol src))
    (Host.gather gather_S100000_S1300000x1_S1300000_n_0_n_n_0_1_1 dis (wrapCol dst))

/-- The weights as the edge array determines them. -/
def weightsOf (e : (⟨S2x1200000, .i32⟩ : BufTy).Contents (Elt F)) : (⟨S1300000, .f32⟩ : BufTy).Contents (Elt F) :=
  normOf (srcOf e) (dstOf e) (disOf (degOf (dstOf e)))

/-- One message-passing step: rows gathered at the sources, scaled by the weights, added at the destinations. -/
def aggregate (h : (⟨S100000x64, .f32⟩ : BufTy).Contents (Elt F)) (src dst : (⟨S1300000, .i32⟩ : BufTy).Contents (Elt F))
    (w : (⟨S1300000, .f32⟩ : BufTy).Contents (Elt F)) : (⟨S100000x64, .f32⟩ : BufTy).Contents (Elt F) :=
  Host.scatterAdd scatter_S100000x64_S1300000x1_S1300000x64_1_0_0_1
    (broadcastInDim S100000x64 ![] bcast_S_S100000x64 (constant S_ .f32 0x00000000#32))
    (broadcastInDim S1300000x1 ![0] bcast_S1300000_S1300000x1_0 dst)
    (mulf (Host.gather gather_S100000x64_S1300000x1_S1300000x64_1_0_n_n_0_1_164 h (wrapCol src))
      (broadcastInDim S1300000x64 ![0, 1] bcast_S1300000x1_S1300000x64_0_1 (broadcastInDim S1300000x1 ![0] bcast_S1300000_S1300000x1_0 w)))

/-- The positive and the negative pair lists side by side. -/
def pairsOf (p n : (⟨S2x100000, .i32⟩ : BufTy).Contents (Elt F)) : (⟨S2x200000, .i32⟩ : BufTy).Contents (Elt F) :=
  concatenate S2x200000 1 [⟨S2x100000, p⟩, ⟨S2x100000, n⟩] concatenates_S2x100000_S2x100000_S2x200000_d1

/-- A pair-endpoint list as a column of gather indices, an index below zero moved up by the node count. -/
def wrapPairCol (i : (⟨S200000, .i32⟩ : BufTy).Contents (Elt F)) : (⟨S200000x1, .i32⟩ : BufTy).Contents (Elt F) :=
  broadcastInDim S200000x1 ![0] bcast_S200000_S200000x1_0
    (select (cmpi .slt i (broadcastInDim S200000 ![] bcast_S_S200000 (constantI S_ 32 0#32)))
      (addi i (broadcastInDim S200000 ![] bcast_S_S200000 (constantI S_ 32 100000#32))) i)

/-- The feature rows of every pair's first endpoint. -/
def firstRows (z : (⟨S100000x64, .f32⟩ : BufTy).Contents (Elt F)) (pr : (⟨S2x200000, .i32⟩ : BufTy).Contents (Elt F)) :
    (⟨S200000x64, .f32⟩ : BufTy).Contents (Elt F) :=
  Host.gather gather_S100000x64_S200000x1_S200000x64_1_0_n_n_0_1_164 z
    (wrapPairCol (shapeCast S200000 (extractStridedSlice S1x200000 ![0, 0] pr slices_S2x200000_S1x200000_0_0) shapeCasts_S1x200000_S200000))

/-- The feature rows of every pair's second endpoint. -/
def secondRows (z : (⟨S100000x64, .f32⟩ : BufTy).Contents (Elt F)) (pr : (⟨S2x200000, .i32⟩ : BufTy).Contents (Elt F)) :
    (⟨S200000x64, .f32⟩ : BufTy).Contents (Elt F) :=
  Host.gather gather_S100000x64_S200000x1_S200000x64_1_0_n_n_0_1_164 z
    (wrapPairCol (shapeCast S200000 (extractStridedSlice S1x200000 ![1, 0] pr slices_S2x200000_S1x200000_1_0) shapeCasts_S1x200000_S200000))

end Cert.KernelIdeal.Chain

end
-- ==== Proof.Spec.lean ====
/-
  What each of the five launches computes, as one function of the arrays it reads, index by index on the
  extended reals. `lin` is a [100000, 64] by [64, 64] matrix product, entry (r, q) the sum over k of
  x (r, k) · w (k, q). `biasRelu` adds a [1, 64] row to every row and clamps at zero; `bias` only adds the row.
  `decode` is the row-wise inner product of two [200000, 64] arrays, kept as a [200000, 1] column.
-/
import proofs.«134592_j20529943675093_1_alg».proof.Proof.Gen.KernelIdeal
import Idealize.ShloMosaic.PureOps.Ideal
import Idealize.ShloMosaic.Lib.ValueIdx

noncomputable section

namespace Cert.KernelIdeal.Spec

open Cert.KernelIdeal Cert.KernelIdeal.Gen
open Idealize.ShloMosaic Idealize.SL.Sem
open Idealize.ShloMosaic.ValueIdx

/-- Entry (r, k) of the left operand: the one the product term `k` of result entry `i = (r, q)` reads. -/
abbrev rowAt (i : S100000x64.Idx) (k : Fin 64) : S100000x64.Idx := fun a => match a with
  | ⟨0, _⟩ => ⟨(i 0).val, (i 0).isLt⟩
  | ⟨1, _⟩ => ⟨k.val, k.isLt⟩

/-- Entry (k, q) of the weights: the one the product term `k` of result entry `i = (r, q)` reads. -/
abbrev colAt (i : S100000x64.Idx) (k : Fin 64) : S64x64.Idx := fun a => match a with
  | ⟨0, _⟩ => ⟨k.val, k.isLt⟩
  | ⟨1, _⟩ => ⟨(i 1).val, (i 1).isLt⟩

/-- The dense transform: entry (r, q) is the sum over k of x (r, k) · w (k, q). -/
def lin (x : Vec Ideal S100000x64 .f32) (w : Vec Ideal S64x64 .f32) : Vec Ideal S100000x64 .f32 :=
  fun i => ∑ k : Fin 64, x (rowAt i k) * w (colAt i k)

/-- Column `q` of the [1, 64] bias row, for the result entry `i = (r, q)`. -/
abbrev biasAt (i : S100000x64.Idx) : S1x64.Idx := ix2 (0 : Fin 1) (⟨(i 1).val, idx2_lt1 i⟩ : Fin 64)

/-- Row-wise bias and clamp at zero: `max (a (r, q) + b (0, q)) 0`. -/
def biasRelu (a : Vec Ideal S100000x64 .f32) (b : Vec Ideal S1x64 .f32) : Vec Ideal S100000x64 .f32 :=
  fun i => max (a i + b (biasAt i)) (Ideal.ofBits .f32 0x00000000#32)

/-- Row-wise bias: `a (r, q) + b (0, q)`. -/
def bias (a : Vec Ideal S100000x64 .f32) (b : Vec Ideal S1x64 .f32) : Vec Ideal S100000x64 .f32 :=
  fun i => a i + b (biasAt i)

/-- Entry (e, k) of a [200000, 64] array, for row `e` of the [200000, 1] result. -/
abbrev pairAt (i : S200000x1.Idx) (k : Fin 64) : S200000x64.Idx := ix2 (⟨(i 0).val, idx2_lt0 i⟩ : Fin 200000) k

/-- The inner product of the two endpoint rows of every pair: `∑ k, a (e, k) · b (e, k)`. -/
def decode (a b : Vec Ideal S200000x64 .f32) : Vec Ideal S200000x1 .f32 :=
  fun i => ∑ k : Fin 64, a (pairAt i k) * b (pairAt i k)

end Cert.KernelIdeal.Spec

end
-- ==== Proof.Carry.lean ====
/-
  The host stretches of the kernel program, read one at a time and at any float family: what each stretch leaves
  in the buffers the next launch or a later stretch reads, as the shared host functions (`Chain`) of what the
  stretch itself found, and which buffers it passes on untouched. The edge-derived arrays (sources, destinations,
  weights) are computed before the first launch; a launch changes only its own result array, and the later
  stretches write none of them, so they reach every later reader as first computed.
-/
import proofs.«134592_j20529943675093_1_alg».proof.Proof.Gen.KernelIdeal.Frame
import proofs.«134592_j20529943675093_1_alg».proof.Proof.Chain
import Idealize.ShloMosaic.Lib.StableHlo.Run

set_option maxRecDepth 16384

noncomputable section

namespace Cert.KernelIdeal.Carry

open Cert.KernelIdeal Cert.KernelIdeal.Gen Cert.KernelIdeal.Chain
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg) (c : Dev nD)

/-! ## Before the first launch -/

theorem W3_src : W3 m ρ c (Proc.devRef .tc main_v3) = srcOf (m ((c : Thread nD τ).loc main_arg1)) := by
  show StableHlo.after hostOps0_2 (StableHlo.after hostOps0_1 (StableHlo.after hostOps0 (W0 m ρ c))) (Proc.devRef .tc main_v3) = _
  after_results <;> rfl
theorem W3_dst : W3 m ρ c (Proc.devRef .tc main_v6) = dstOf (m ((c : Thread nD τ).loc main_arg1)) := by
  show StableHlo.after hostOps0_2 (StableHlo.after hostOps0_1 (StableHlo.after hostOps0 (W0 m ρ c))) (Proc.devRef .tc main_v6) = _
  after_results <;> rfl
theorem W3_wts : W3 m ρ c (Proc.devRef .tc main_v31) = weightsOf (m ((c : Thread nD τ).loc main_arg1)) := by
  show StableHlo.after hostOps0_2 (StableHlo.after hostOps0_1 (StableHlo.after hostOps0 (W0 m ρ c))) (Proc.devRef .tc main_v31) = _
  after_results_simp <;> rfl
theorem W3_arg0 : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  after_results_simp <;> rfl
theorem W3_arg2 : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  after_results_simp <;> rfl
theorem W3_arg3 : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  after_results_simp <;> rfl
theorem W3_arg4 : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  after_results_simp <;> rfl
theorem W3_arg5 : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  after_results_simp <;> rfl
theorem W3_arg6 : W3 m ρ c (Proc.devRef .tc main_arg6) = m ((c : Thread nD τ).loc main_arg6) := by
  show StableHlo.after hostOps0_2 (StableHlo.after hostOps0_1 (StableHlo.after hostOps0 (W0 m ρ c))) (Proc.devRef .tc main_arg6) = _
  after_results_simp <;> rfl
theorem W3_arg7 : W3 m ρ c (Proc.devRef .tc main_arg7) = m ((c : Thread nD τ).loc main_arg7) := by
  show StableHlo.after hostOps0_2 (StableHlo.after hostOps0_1 (StableHlo.after hostOps0 (W0 m ρ c))) (Proc.devRef .tc main_arg7) = _
  after_results_simp <;> rfl

/-! ## Past the first launch, and the first message-passing stretch -/

theorem W4_src : W4 m ρ c (Proc.devRef .tc main_v3) = W3 m ρ c (Proc.devRef .tc main_v3) := W4_of_ne m ρ c main_v3 (by decide)
theorem W4_dst : W4 m ρ c (Proc.devRef .tc main_v6) = W3 m ρ c (Proc.devRef .tc main_v6) := W4_of_ne m ρ c main_v6 (by decide)
theorem W4_wts : W4 m ρ c (Proc.devRef .tc main_v31) = W3 m ρ c (Proc.devRef .tc main_v31) := W4_of_ne m ρ c main_v31 (by decide)
theorem W4_arg2 : W4 m ρ c (Proc.devRef .tc main_arg2) = W3 m ρ c (Proc.devRef .tc main_arg2) := W4_of_ne m ρ c main_arg2 (by decide)
theorem W4_arg3 : W4 m ρ c (Proc.devRef .tc main_arg3) = W3 m ρ c (Proc.devRef .tc main_arg3) := W4_of_ne m ρ c main_arg3 (by decide)
theorem W4_arg5 : W4 m ρ c (Proc.devRef .tc main_arg5) = W3 m ρ c (Proc.devRef .tc main_arg5) := W4_of_ne m ρ c main_arg5 (by decide)
theorem W4_arg6 : W4 m ρ c (Proc.devRef .tc main_arg6) = W3 m ρ c (Proc.devRef .tc main_arg6) := W4_of_ne m ρ c main_arg6 (by decide)
theorem W4_arg7 : W4 m ρ c (Proc.devRef .tc main_arg7) = W3 m ρ c (Proc.devRef .tc main_arg7) := W4_of_ne m ρ c main_arg7 (by decide)

theorem W5_agg : W5 m ρ c (Proc.devRef .tc main_v45)
    = aggregate (W4 m ρ c (Proc.devRef .tc main_v32)) (W4 m ρ c (Proc.devRef .tc main_v3)) (W4 m ρ c (Proc.devRef .tc main_v6)) (W4 m ρ c (Proc.devRef .tc main_v31)) := by
  show StableHlo.after hostOps1 (W4 m ρ c) (Proc.devRef .tc main_v45) = _
  after_results_simp <;> rfl
theorem W5_row : W5 m ρ c (Proc.devRef .tc main_v46) = shapeCast S1x64 (W4 m ρ c (Proc.devRef .tc main_arg5)) shapeCasts_S64_S1x64 := by
  show StableHlo.after hostOps1 (W4 m ρ c) (Proc.devRef .tc main_v46) = _
  after_results_simp <;> rfl
theorem W5_src : W5 m ρ c (Proc.devRef .tc main_v3) = W4 m ρ c (Proc.devRef .tc main_v3) := by
  show StableHlo.after hostOps1 (W4 m ρ c) (Proc.devRef .tc main_v3) = _
  after_results_simp <;> rfl
theorem W5_dst : W5 m ρ c (Proc.devRef .tc main_v6) = W4 m ρ c (Proc.devRef .tc main_v6) := by
  show StableHlo.after hostOps1 (W4 m ρ c) (Proc.devRef .tc main_v6) = _
  after_results_simp <;> rfl
theorem W5_wts : W5 m ρ c (Proc.devRef .tc main_v31) = W4 m ρ c (Proc.devRef .tc main_v31) := by
  show StableHlo.after hostOps1 (W4 m ρ c) (Proc.devRef .tc main_v31) = _
  after_results_simp <;> rfl
theorem W5_arg2 : W5 m ρ c (Proc.devRef .tc main_arg2) = W4 m ρ c (Proc.devRef .tc main_arg2) := by
  show StableHlo.after hostOps1 (W4 m ρ c) (Proc.devRef .tc main_arg2) = _
  after_results_simp <;> rfl
theorem W5_arg3 : W5 m ρ c (Proc.devRef .tc main_arg3) = W4 m ρ c (Proc.devRef .tc main_arg3) := by
  show StableHlo.after hostOps1 (W4 m ρ c) (Proc.devRef .tc main_arg3) = _
  after_results_simp <;> rfl
theorem W5_arg6 : W5 m ρ c (Proc.devRef .tc main_arg6) = W4 m ρ c (Proc.devRef .tc main_arg6) := by
  show StableHlo.after hostOps1 (W4 m ρ c) (Proc.devRef .tc main_arg6) = _
  after_results_simp <;> rfl
theorem W5_arg7 : W5 m ρ c (Proc.devRef .tc main_arg7) = W4 m ρ c (Proc.devRef .tc main_arg7) := by
  show StableHlo.after hostOps1 (W4 m ρ c) (Proc.devRef .tc main_arg7) = _
  after_results_simp <;> rfl

/-! ## Past the second and third launches -/

theorem W6_src : W6 m ρ c (Proc.devRef .tc main_v3) = W5 m ρ c (Proc.devRef .tc main_v3) := W6_of_ne m ρ c main_v3 (by decide)
theorem W6_dst : W6 m ρ c (Proc.devRef .tc main_v6) = W5 m ρ c (Proc.devRef .tc main_v6) := W6_of_ne m ρ c main_v6 (by decide)
theorem W6_wts : W6 m ρ c (Proc.devRef .tc main_v31) = W5 m ρ c (Proc.devRef .tc main_v31) := W6_of_ne m ρ c main_v31 (by decide)
theorem W6_arg2 : W6 m ρ c (Proc.devRef .tc main_arg2) = W5 m ρ c (Proc.devRef .tc main_arg2) := W6_of_ne m ρ c main_arg2 (by decide)
theorem W6_arg3 : W6 m ρ c (Proc.devRef .tc main_arg3) = W5 m ρ c (Proc.devRef .tc main_arg3) := W6_of_ne m ρ c main_arg3 (by decide)
theorem W6_arg6 : W6 m ρ c (Proc.devRef .tc main_arg6) = W5 m ρ c (Proc.devRef .tc main_arg6) := W6_of_ne m ρ c main_arg6 (by decide)
theorem W6_arg7 : W6 m ρ c (Proc.devRef .tc main_arg7) = W5 m ρ c (Proc.devRef .tc main_arg7) := W6_of_ne m ρ c main_arg7 (by decide)
theorem W7_src : W7 m ρ c (Proc.devRef .tc main_v3) = W6 m ρ c (Proc.devRef .tc main_v3) := W7_of_ne m ρ c main_v3 (by decide)
theorem W7_dst : W7 m ρ c (Proc.devRef .tc main_v6) = W6 m ρ c (Proc.devRef .tc main_v6) := W7_of_ne m ρ c main_v6 (by decide)
theorem W7_wts : W7 m ρ c (Proc.devRef .tc main_v31) = W6 m ρ c (Proc.devRef .tc main_v31) := W7_of_ne m ρ c main_v31 (by decide)
theorem W7_arg2 : W7 m ρ c (Proc.devRef .tc main_arg2) = W6 m ρ c (Proc.devRef .tc main_arg2) := W7_of_ne m ρ c main_arg2 (by decide)
theorem W7_arg3 : W7 m ρ c (Proc.devRef .tc main_arg3) = W6 m ρ c (Proc.devRef .tc main_arg3) := W7_of_ne m ρ c main_arg3 (by decide)
theorem W7_arg7 : W7 m ρ c (Proc.devRef .tc main_arg7) = W6 m ρ c (Proc.devRef .tc main_arg7) := W7_of_ne m ρ c main_arg7 (by decide)

/-! ## The second message-passing stretch, past the fourth launch -/

theorem W8_agg : W8 m ρ c (Proc.devRef .tc main_v61)
    = aggregate (W7 m ρ c (Proc.devRef .tc main_v48)) (W7 m ρ c (Proc.devRef .tc main_v3)) (W7 m ρ c (Proc.devRef .tc main_v6)) (W7 m ρ c (Proc.devRef .tc main_v31)) := by
  show StableHlo.after hostOps3 (W7 m ρ c) (Proc.devRef .tc main_v61) = _
  after_results_simp <;> rfl
theorem W8_row : W8 m ρ c (Proc.devRef .tc main_v62) = shapeCast S1x64 (W7 m ρ c (Proc.devRef .tc main_arg7)) shapeCasts_S64_S1x64 := by
  show StableHlo.after hostOps3 (W7 m ρ c) (Proc.devRef .tc main_v62) = _
  after_results_simp <;> rfl
theorem W8_arg2 : W8 m ρ c (Proc.devRef .tc main_arg2) = W7 m ρ c (Proc.devRef .tc main_arg2) := by
  show StableHlo.after hostOps3 (W7 m ρ c) (Proc.devRef .tc main_arg2) = _
  after_results_simp <;> rfl
theorem W8_arg3 : W8 m ρ c (Proc.devRef .tc main_arg3) = W7 m ρ c (Proc.devRef .tc main_arg3) := by
  show StableHlo.after hostOps3 (W7 m ρ c) (Proc.devRef .tc main_arg3) = _
  after_results_simp <;> rfl
theorem W9_arg2 : W9 m ρ c (Proc.devRef .tc main_arg2) = W8 m ρ c (Proc.devRef .tc main_arg2) := W9_of_ne m ρ c main_arg2 (by decide)
theorem W9_arg3 : W9 m ρ c (Proc.devRef .tc main_arg3) = W8 m ρ c (Proc.devRef .tc main_arg3) := W9_of_ne m ρ c main_arg3 (by decide)

/-! ## The decode stretch and the last reshape -/

theorem W10_first : W10 m ρ c (Proc.devRef .tc main_v73)
    = firstRows (W9 m ρ c (Proc.devRef .tc main_v63)) (pairsOf (W9 m ρ c (Proc.devRef .tc main_arg2)) (W9 m ρ c (Proc.devRef .tc main_arg3))) := by
  show StableHlo.after hostOps4 (W9 m ρ c) (Proc.devRef .tc main_v73) = _
  after_results_simp <;> rfl
theorem W10_second : W10 m ρ c (Proc.devRef .tc main_v82)
    = secondRows (W9 m ρ c (Proc.devRef .tc main_v63)) (pairsOf (W9 m ρ c (Proc.devRef .tc main_arg2)) (W9 m ρ c (Proc.devRef .tc main_arg3))) := by
  show StableHlo.after hostOps4 (W9 m ρ c) (Proc.devRef .tc main_v82) = _
  after_results_simp <;> rfl

theorem W12_out : W12 m ρ c (Proc.devRef .tc main_v84) = shapeCast S200000 (W11 m ρ c (Proc.devRef .tc main_v83)) shapeCasts_S200000x1_S200000 := by
  show StableHlo.after hostOps5 (W11 m ρ c) (Proc.devRef .tc main_v84) = _
  after_results_simp <;> rfl

end Cert.KernelIdeal.Carry

end
-- ==== Proof.LinearValue0.lean ====
/-
  The first launch is the dense transform of the node features: ten grid points, point `t` staging rows
  `10000·t … 10000·t + 9999` of the [100000, 64] features and the whole [64, 64] weights, multiplying them (the
  narrowing of the operands is the identity on the extended reals, the accumulator is zero) and writing the same
  rows of the result. Entry (r, q) of the result array is therefore `∑ k, x (r, k) · w (k, q)`: `Spec.lin` of
  the two arrays the launch finds.
-/
import proofs.«134592_j20529943675093_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«134592_j20529943675093_1_alg».proof.Proof.Spec

set_option maxRecDepth 16384

noncomputable section

namespace Cert.KernelIdeal.LinearValue0

open Cert.KernelIdeal Cert.KernelIdeal.Gen
open Idealize.ShloMosaic Idealize.ShloMosaic.TcCoe Idealize.SL.Sem
open Idealize.ShloMosaic.Pipeline (Dat Cfg Window)
open Idealize.ShloMosaic.ValueIdx

open Cert.KernelIdeal.Spec

variable (V : (c : Dev nD) → (b : Ref sig .tc) → Buf (Elt Ideal) ((c : Thread nD τ).loc b))

/-- The features and the weights as the launch finds them, at their literal types. -/
abbrev featArr (c : Dev nD) : Vec Ideal S100000x64 .f32 := V c main_arg0
abbrev wtArr (c : Dev nD) : Vec Ideal S64x64 .f32 := V c main_arg4

theorem hz : (![0, 0] : Fin 2 → Nat) = fun _ => 0 := funext fun a => by fin_cases a <;> rfl

/-! The block product's operand indices, axis by axis. -/

theorem lhs_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhs_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem rhs_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem rhs_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- Entry (p, k) of the staged rows, and entry (k, q) of the staged weights: what term `k` of block entry `(p, q)` reads. -/
abbrev brow (i : S10000x64.Idx) (k : Fin 64) : S10000x64.Idx := fun a => match a with
  | ⟨0, _⟩ => ⟨(i 0).val, (i 0).isLt⟩
  | ⟨1, _⟩ => ⟨k.val, k.isLt⟩
abbrev bcol (i : S10000x64.Idx) (k : Fin 64) : S64x64.Idx := fun a => match a with
  | ⟨0, _⟩ => ⟨k.val, k.isLt⟩
  | ⟨1, _⟩ => ⟨(i 1).val, (i 1).isLt⟩

/-- The body's stored value at an index of the block: the sum over `k` of the products of the two staged operands. -/
theorem pay_apply (x0 : Vec Ideal S10000x64 .f32) (x1 : Vec Ideal S64x64 .f32) (i : S10000x64.Idx) :
    k0_pay1 x0 x1 i = ∑ k : Fin 64, x0 (brow i k) * x1 (bcol i k) := by
  unfold k0_pay1
  show FloatOps.matmul dot_S10000x64_S64x64_S10000x64_1_0_0_1_n_n none (truncf (F := Ideal) .bf16 x0 bitsLt_bf16_f32) (truncf (F := Ideal) .bf16 x1 bitsLt_bf16_f32)
      (constant (F := Ideal) S10000x64 .f32 0x00000000#32) i = _
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx i ((contrEquiv1 dot_S10000x64_S64x64_S10000x64_1_0_0_1_n_n 64 rfl rfl).symm k) = brow i k := funext fun a => Fin.ext (by
    match a with
    | ⟨0, _⟩ => exact lhs_0 _ _
    | ⟨1, _⟩ => exact (lhs_1 _ _).trans hk)
  have er : dot_S10000x64_S64x64_S10000x64_1_0_0_1_n_n.rhsIdx i ((contrEquiv1 dot_S10000x64_S64x64_S10000x64_1_0_0_1_n_n 64 rfl rfl).symm k) = bcol i k := funext fun a => Fin.ext (by
    match a with
    | ⟨0, _⟩ => exact (rhs_0 _ _).trans hk
    | ⟨1, _⟩ => exact rhs_1 _ _)
  rw [el, er]
  rfl

/-- The index maps over the grid: the features and the result move together along the rows, the weights stay. -/
theorem idx_facts : ∀ t : Fin cfg0.N, win0_0.index t (0 : Fin 2) = win0_2.index t (0 : Fin 2)
    ∧ win0_0.index t (1 : Fin 2) = 0 ∧ win0_2.index t (1 : Fin 2) = 0
    ∧ win0_1.index t (0 : Fin 2) = 0 ∧ win0_1.index t (1 : Fin 2) = 0
    ∧ win0_2.index t (0 : Fin 2) = t.val :=
  (by decide +kernel : ∀ t : Fin grid0.N, _)

/-- What point `t` writes back is block `t` of `lin` of the two arrays as the launch finds them. -/
theorem flushed_eq (c : Dev nD) (t : Fin cfg0.N) :
    (dat0 V c).flushed 2 t = ((cfg0.win 2).blk t).view.read (Elt Ideal) (lin (featArr V c) (wtArr V c)) := by
  show (cfg0.win 2).cut (grid0.coords t) ((dat0 V c).after 2 t) = _
  rw [after0_2]
  unfold out0_2
  rw [View.canon_unit_zero hz]
  simp only [View.ld_unit_zero (S := S10000x64) hz, View.ld_unit_zero (S := S64x64) hz]
  obtain ⟨e0, e1, e2, e3, e4, e5⟩ := idx_facts t
  funext j
  obtain ⟨p, q, rfl⟩ : ∃ (p : Fin 10000) (q : Fin 64), j = ix2 p q := ⟨j 0, j 1, eq_ix2 j⟩
  refine (pay_apply (iblk0 V c 0 t) (iblk0 V c 1 t) (ix2 p q)).trans ?_
  show _ = ∑ k : Fin 64, featArr V c (rowAt (((cfg0.win 2).blk t).view.emb (ix2 p q)) k) * wtArr V c (colAt (((cfg0.win 2).blk t).view.emb (ix2 p q)) k)
  refine Finset.sum_congr rfl fun k _ => ?_
  have h0 : ((cfg0.win 0).blk t).view.emb (brow (ix2 p q) k) = rowAt (((cfg0.win 2).blk t).view.emb (ix2 p q)) k := by
    funext a; apply Fin.ext
    match a with
    | ⟨0, _⟩ => show win0_0.index t (0 : Fin 2) * 10000 + 1 * p.val = win0_2.index t (0 : Fin 2) * 10000 + 1 * p.val; omega
    | ⟨1, _⟩ => show win0_0.index t (1 : Fin 2) * 64 + 1 * k.val = k.val; omega
  have h1 : ((cfg0.win 1).blk t).view.emb (bcol (ix2 p q) k) = colAt (((cfg0.win 2).blk t).view.emb (ix2 p q)) k := by
    funext a; apply Fin.ext
    match a with
    | ⟨0, _⟩ => show win0_1.index t (0 : Fin 2) * 64 + 1 * k.val = k.val; omega
    | ⟨1, _⟩ => show win0_1.index t (1 : Fin 2) * 64 + 1 * q.val = win0_2.index t (1 : Fin 2) * 64 + 1 * q.val; omega
  have hA : iblk0 V c 0 t (brow (ix2 p q) k) = featArr V c (rowAt (((cfg0.win 2).blk t).view.emb (ix2 p q)) k) :=
    (show featArr V c (((cfg0.win 0).blk t).view.emb (brow (ix2 p q) k)) = _ from congrArg (featArr V c) h0)
  have hB : iblk0 V c 1 t (bcol (ix2 p q) k) = wtArr V c (colAt (((cfg0.win 2).blk t).view.emb (ix2 p q)) k) :=
    (show wtArr V c (((cfg0.win 1).blk t).view.emb (bcol (ix2 p q) k)) = _ from congrArg (wtArr V c) h1)
  rw [hA, hB]

/-- An index of the array is in point `t`'s block iff each coordinate is in the block's range on its axis. -/
theorem mem_blk (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v32).slice (win0_2.rect t)).set ↔ _
  rw [View.set_slice_whole, Rect.mem_set_unit]
  exact Iff.rfl

/-- Every index of the result lies in the block of the point that owns its row: point `r / 10000`. -/
theorem cover (i : S100000x64.Idx) : ∃ t : Fin cfg0.N, (cfg0.win 2).flush t = true ∧ i ∈ ((cfg0.win 2).blk t).view.set := by
  have hi0 : (i 0).val < 100000 := idx2_lt0 i
  have hi1 : (i 1).val < 64 := idx2_lt1 i
  let t : Fin cfg0.N := ⟨(i 0).val / 10000, by rw [show cfg0.N = 10 from N_0]; omega⟩
  obtain ⟨e0, e1, e2, e3, e4, e5⟩ := idx_facts t
  have e5' : win0_2.index t (0 : Fin 2) = (i 0).val / 10000 := e5
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- The result array after the launch: `lin` of the features and the weights as the launch finds them. -/
theorem final (c : Dev nD) : (dat0 V c).arrAt 2 cfg0.N = lin (featArr V c) (wtArr V c) :=
  (dat0 V c).arrAt_eq_of_cover 2 (lin (featArr V c) (wtArr V c)) (fun t _ => flushed_eq V c t) cover

end Cert.KernelIdeal.LinearValue0

end
-- ==== Proof.BiasReluValue.lean ====
/-
  The second launch adds the bias row to every row of the aggregated features and clamps at zero. Its grid has ten
  points; point `t` stages rows `10000·t … 10000·t + 9999` of the [100000, 64] operand, the whole [1, 64] bias row,
  and writes the same rows of the result. Read at an index `(r, q)` the result array therefore ends at
  `max (a (r, q) + b (0, q)) 0`: one function (`Spec.biasRelu`) of the two arrays the launch finds, whatever they hold.
-/
import proofs.«134592_j20529943675093_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«134592_j20529943675093_1_alg».proof.Proof.Spec

set_option maxRecDepth 16384

noncomputable section

namespace Cert.KernelIdeal.BiasReluValue

open Cert.KernelIdeal Cert.KernelIdeal.Gen
open Idealize.ShloMosaic Idealize.ShloMosaic.TcCoe Idealize.SL.Sem
open Idealize.ShloMosaic.Pipeline (Dat Cfg Window)
open Idealize.ShloMosaic.ValueIdx

open Cert.KernelIdeal.Spec

variable (V : (c : Dev nD) → (b : Ref sig .tc) → Buf (Elt Ideal) ((c : Thread nD τ).loc b))

/-- The operand array and the bias row as the launch finds them, at their literal types. -/
abbrev opArr (c : Dev nD) : Vec Ideal S100000x64 .f32 := V c main_v45
abbrev rowArr (c : Dev nD) : Vec Ideal S1x64 .f32 := V c main_v46

theorem hz : (![0, 0] : Fin 2 → Nat) = fun _ => 0 := funext fun a => by fin_cases a <;> rfl

/-- The body's stored value at `(p, q)` of the block: the loaded entry plus the bias entry of column `q`, clamped at zero. -/
theorem pay_apply (x0 : Vec Ideal S10000x64 .f32) (x1 : Vec Ideal S1x64 .f32) (p : Fin 10000) (q : Fin 64) :
    k1_pay1 x0 x1 (ix2 p q) = max (x0 (ix2 p q) + x1 (ix2 (0 : Fin 1) q)) (Ideal.ofBits .f32 0x00000000#32) := by
  unfold k1_pay1
  show max (shapeCast S10000x64 x0 shapeCasts_S10000x64_S10000x64 (ix2 p q)
      + broadcastTo S10000x64 (shapeCast S1x64 x1 shapeCasts_S1x64_S1x64) broadcasts_S1x64_S10000x64 (ix2 p q)) _ = _
  rw [shapeCast_self, shapeCast_self,
    broadcastTo_apply x1 broadcasts_S1x64_S10000x64 (ix2 p q) (ix2 (0 : Fin 1) q)
      (fun a => by match a with | ⟨0, _⟩ => rfl | ⟨1, _⟩ => rfl)]
  rfl

/-- The index maps over the grid: the operand and the result move together along the rows, the bias row stays. -/
theorem idx_facts : ∀ t : Fin cfg1.N, win1_0.index t (0 : Fin 2) = win1_2.index t (0 : Fin 2)
    ∧ win1_0.index t (1 : Fin 2) = 0 ∧ win1_2.index t (1 : Fin 2) = 0
    ∧ win1_1.index t (0 : Fin 2) = 0 ∧ win1_1.index t (1 : Fin 2) = 0
    ∧ win1_2.index t (0 : Fin 2) = t.val :=
  (by decide +kernel : ∀ t : Fin grid1.N, _)

/-- What point `t` writes back is block `t` of `biasRelu` of the two arrays as the launch finds them. -/
theorem flushed_eq (c : Dev nD) (t : Fin cfg1.N) :
    (dat1 V c).flushed 2 t = ((cfg1.win 2).blk t).view.read (Elt Ideal) (biasRelu (opArr V c) (rowArr V c)) := by
  show (cfg1.win 2).cut (grid1.coords t) ((dat1 V c).after 2 t) = _
  rw [after1_2]
  unfold out1_2
  rw [View.canon_unit_zero hz]
  simp only [View.ld_unit_zero (S := S10000x64) hz, View.ld_unit_zero (S := S1x64) hz]
  obtain ⟨e0, e1, e2, e3, e4, e5⟩ := idx_facts t
  funext j
  obtain ⟨p, q, rfl⟩ : ∃ (p : Fin 10000) (q : Fin 64), j = ix2 p q := ⟨j 0, j 1, eq_ix2 j⟩
  refine (pay_apply (iblk1 V c 0 t) (iblk1 V c 1 t) p q).trans ?_
  have h0 : ((cfg1.win 0).blk t).view.emb (ix2 p q) = ((cfg1.win 2).blk t).view.emb (ix2 p q) := by
    funext a; apply Fin.ext
    match a with
    | ⟨0, _⟩ => show win1_0.index t (0 : Fin 2) * 10000 + 1 * p.val = win1_2.index t (0 : Fin 2) * 10000 + 1 * p.val; omega
    | ⟨1, _⟩ => show win1_0.index t (1 : Fin 2) * 64 + 1 * q.val = win1_2.index t (1 : Fin 2) * 64 + 1 * q.val; omega
  have h1 : ((cfg1.win 1).blk t).view.emb (ix2 (0 : Fin 1) q) = biasAt (((cfg1.win 2).blk t).view.emb (ix2 p q)) := by
    funext a; apply Fin.ext
    match a with
    | ⟨0, _⟩ => show win1_1.index t (0 : Fin 2) * 1 + 1 * 0 = 0; omega
    | ⟨1, _⟩ => show win1_1.index t (1 : Fin 2) * 64 + 1 * q.val = win1_2.index t (1 : Fin 2) * 64 + 1 * q.val; omega
  have hA : iblk1 V c 0 t (ix2 p q) = opArr V c (((cfg1.win 2).blk t).view.emb (ix2 p q)) :=
    (show opArr V c (((cfg1.win 0).blk t).view.emb (ix2 p q)) = _ from congrArg (opArr V c) h0)
  have hB : iblk1 V c 1 t (ix2 (0 : Fin 1) q) = rowArr V c (biasAt (((cfg1.win 2).blk t).view.emb (ix2 p q))) :=
    (show rowArr V c (((cfg1.win 1).blk t).view.emb (ix2 (0 : Fin 1) q)) = _ from congrArg (rowArr V c) h1)
  rw [hA, hB]
  rfl

/-- An index of the array is in point `t`'s block iff each coordinate is in the block's range on its axis. -/
theorem mem_blk (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v47).slice (win1_2.rect t)).set ↔ _
  rw [View.set_slice_whole, Rect.mem_set_unit]
  exact Iff.rfl

/-- Every index of the result lies in the block of the point that owns its row: point `r / 10000`. -/
theorem cover (i : S100000x64.Idx) : ∃ t : Fin cfg1.N, (cfg1.win 2).flush t = true ∧ i ∈ ((cfg1.win 2).blk t).view.set := by
  have hi0 : (i 0).val < 100000 := idx2_lt0 i
  have hi1 : (i 1).val < 64 := idx2_lt1 i
  let t : Fin cfg1.N := ⟨(i 0).val / 10000, by rw [show cfg1.N = 10 from N_1]; omega⟩
  obtain ⟨e0, e1, e2, e3, e4, e5⟩ := idx_facts t
  have e5' : win1_2.index t (0 : Fin 2) = (i 0).val / 10000 := e5
  refine ⟨t, flush1_2 t, ?_⟩
  rw [mem_blk]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- The result array after the launch: `biasRelu` of the operand array and the bias row as the launch finds them. -/
theorem final (c : Dev nD) : (dat1 V c).arrAt 2 cfg1.N = biasRelu (opArr V c) (rowArr V c) :=
  (dat1 V c).arrAt_eq_of_cover 2 (biasRelu (opArr V c) (rowArr V c)) (fun t _ => flushed_eq V c t) cover

end Cert.KernelIdeal.BiasReluValue

end
-- ==== Proof.LinearValue2.lean ====
/-
  The third launch is the dense transform of the hidden features by the second layer's weights: ten grid points,
  point `t` staging rows `10000·t … 10000·t + 9999` of the [100000, 64] hidden features and the whole [64, 64]
  weights, multiplying them (the narrowing of the operands is the identity on the extended reals, the accumulator
  is zero) and writing the same rows of the result. Entry (r, q) of the result array is therefore
  `∑ k, z (r, k) · w (k, q)`: `Spec.lin` of the two arrays the launch finds.
-/
import proofs.«134592_j20529943675093_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«134592_j20529943675093_1_alg».proof.Proof.Spec

set_option maxRecDepth 16384

noncomputable section

namespace Cert.KernelIdeal.LinearValue2

open Cert.KernelIdeal Cert.KernelIdeal.Gen
open Idealize.ShloMosaic Idealize.ShloMosaic.TcCoe Idealize.SL.Sem
open Idealize.ShloMosaic.Pipeline (Dat Cfg Window)
open Idealize.ShloMosaic.ValueIdx

open Cert.KernelIdeal.Spec

variable (V : (c : Dev nD) → (b : Ref sig .tc) → Buf (Elt Ideal) ((c : Thread nD τ).loc b))

/-- The features and the weights as the launch finds them, at their literal types. -/
abbrev featArr (c : Dev nD) : Vec Ideal S100000x64 .f32 := V c main_v47
abbrev wtArr (c : Dev nD) : Vec Ideal S64x64 .f32 := V c main_arg6

theorem hz : (![0, 0] : Fin 2 → Nat) = fun _ => 0 := funext fun a => by fin_cases a <;> rfl

/-! The block product's operand indices, axis by axis. -/

theorem lhs_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhs_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem rhs_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem rhs_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- Entry (p, k) of the staged rows, and entry (k, q) of the staged weights: what term `k` of block entry `(p, q)` reads. -/
abbrev brow (i : S10000x64.Idx) (k : Fin 64) : S10000x64.Idx := fun a => match a with
  | ⟨0, _⟩ => ⟨(i 0).val, (i 0).isLt⟩
  | ⟨1, _⟩ => ⟨k.val, k.isLt⟩
abbrev bcol (i : S10000x64.Idx) (k : Fin 64) : S64x64.Idx := fun a => match a with
  | ⟨0, _⟩ => ⟨k.val, k.isLt⟩
  | ⟨1, _⟩ => ⟨(i 1).val, (i 1).isLt⟩

/-- The body's stored value at an index of the block: the sum over `k` of the products of the two staged operands. -/
theorem pay_apply (x0 : Vec Ideal S10000x64 .f32) (x1 : Vec Ideal S64x64 .f32) (i : S10000x64.Idx) :
    k2_pay1 x0 x1 i = ∑ k : Fin 64, x0 (brow i k) * x1 (bcol i k) := by
  unfold k2_pay1
  show FloatOps.matmul dot_S10000x64_S64x64_S10000x64_1_0_0_1_n_n none (truncf (F := Ideal) .bf16 (shapeCast S10000x64 x0 shapeCasts_S10000x64_S10000x64) bitsLt_bf16_f32) (truncf (F := Ideal) .bf16 x1 bitsLt_bf16_f32)
      (constant (F := Ideal) S10000x64 .f32 0x00000000#32) i = _
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx i ((contrEquiv1 dot_S10000x64_S64x64_S10000x64_1_0_0_1_n_n 64 rfl rfl).symm k) = brow i k := funext fun a => Fin.ext (by
    match a with
    | ⟨0, _⟩ => exact lhs_0 _ _
    | ⟨1, _⟩ => exact (lhs_1 _ _).trans hk)
  have er : dot_S10000x64_S64x64_S10000x64_1_0_0_1_n_n.rhsIdx i ((contrEquiv1 dot_S10000x64_S64x64_S10000x64_1_0_0_1_n_n 64 rfl rfl).symm k) = bcol i k := funext fun a => Fin.ext (by
    match a with
    | ⟨0, _⟩ => exact (rhs_0 _ _).trans hk
    | ⟨1, _⟩ => exact rhs_1 _ _)
  rw [el, er]
  rw [shapeCast_self]
  rfl

/-- The index maps over the grid: the features and the result move together along the rows, the weights stay. -/
theorem idx_facts : ∀ t : Fin cfg2.N, win2_0.index t (0 : Fin 2) = win2_2.index t (0 : Fin 2)
    ∧ win2_0.index t (1 : Fin 2) = 0 ∧ win2_2.index t (1 : Fin 2) = 0
    ∧ win2_1.index t (0 : Fin 2) = 0 ∧ win2_1.index t (1 : Fin 2) = 0
    ∧ win2_2.index t (0 : Fin 2) = t.val :=
  (by decide +kernel : ∀ t : Fin grid2.N, _)

/-- What point `t` writes back is block `t` of `lin` of the two arrays as the launch finds them. -/
theorem flushed_eq (c : Dev nD) (t : Fin cfg2.N) :
    (dat2 V c).flushed 2 t = ((cfg2.win 2).blk t).view.read (Elt Ideal) (lin (featArr V c) (wtArr V c)) := by
  show (cfg2.win 2).cut (grid2.coords t) ((dat2 V c).after 2 t) = _
  rw [after2_2]
  unfold out2_2
  rw [View.canon_unit_zero hz]
  simp only [View.ld_unit_zero (S := S10000x64) hz, View.ld_unit_zero (S := S64x64) hz]
  obtain ⟨e0, e1, e2, e3, e4, e5⟩ := idx_facts t
  funext j
  obtain ⟨p, q, rfl⟩ : ∃ (p : Fin 10000) (q : Fin 64), j = ix2 p q := ⟨j 0, j 1, eq_ix2 j⟩
  refine (pay_apply (iblk2 V c 0 t) (iblk2 V c 1 t) (ix2 p q)).trans ?_
  show _ = ∑ k : Fin 64, featArr V c (rowAt (((cfg2.win 2).blk t).view.emb (ix2 p q)) k) * wtArr V c (colAt (((cfg2.win 2).blk t).view.emb (ix2 p q)) k)
  refine Finset.sum_congr rfl fun k _ => ?_
  have h0 : ((cfg2.win 0).blk t).view.emb (brow (ix2 p q) k) = rowAt (((cfg2.win 2).blk t).view.emb (ix2 p q)) k := by
    funext a; apply Fin.ext
    match a with
    | ⟨0, _⟩ => show win2_0.index t (0 : Fin 2) * 10000 + 1 * p.val = win2_2.index t (0 : Fin 2) * 10000 + 1 * p.val; omega
    | ⟨1, _⟩ => show win2_0.index t (1 : Fin 2) * 64 + 1 * k.val = k.val; omega
  have h1 : ((cfg2.win 1).blk t).view.emb (bcol (ix2 p q) k) = colAt (((cfg2.win 2).blk t).view.emb (ix2 p q)) k := by
    funext a; apply Fin.ext
    match a with
    | ⟨0, _⟩ => show win2_1.index t (0 : Fin 2) * 64 + 1 * k.val = k.val; omega
    | ⟨1, _⟩ => show win2_1.index t (1 : Fin 2) * 64 + 1 * q.val = win2_2.index t (1 : Fin 2) * 64 + 1 * q.val; omega
  have hA : iblk2 V c 0 t (brow (ix2 p q) k) = featArr V c (rowAt (((cfg2.win 2).blk t).view.emb (ix2 p q)) k) :=
    (show featArr V c (((cfg2.win 0).blk t).view.emb (brow (ix2 p q) k)) = _ from congrArg (featArr V c) h0)
  have hB : iblk2 V c 1 t (bcol (ix2 p q) k) = wtArr V c (colAt (((cfg2.win 2).blk t).view.emb (ix2 p q)) k) :=
    (show wtArr V c (((cfg2.win 1).blk t).view.emb (bcol (ix2 p q) k)) = _ from congrArg (wtArr V c) h1)
  rw [hA, hB]

/-- An index of the array is in point `t`'s block iff each coordinate is in the block's range on its axis. -/
theorem mem_blk (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v48).slice (win2_2.rect t)).set ↔ _
  rw [View.set_slice_whole, Rect.mem_set_unit]
  exact Iff.rfl

/-- Every index of the result lies in the block of the point that owns its row: point `r / 10000`. -/
theorem cover (i : S100000x64.Idx) : ∃ t : Fin cfg2.N, (cfg2.win 2).flush t = true ∧ i ∈ ((cfg2.win 2).blk t).view.set := by
  have hi0 : (i 0).val < 100000 := idx2_lt0 i
  have hi1 : (i 1).val < 64 := idx2_lt1 i
  let t : Fin cfg2.N := ⟨(i 0).val / 10000, by rw [show cfg2.N = 10 from N_2]; omega⟩
  obtain ⟨e0, e1, e2, e3, e4, e5⟩ := idx_facts t
  have e5' : win2_2.index t (0 : Fin 2) = (i 0).val / 10000 := e5
  refine ⟨t, flush2_2 t, ?_⟩
  rw [mem_blk]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 64 ≤ (i 1).val ∧ (i 1).val < win2_2.index t (1 : Fin 2) * 64 + 64; omega

/-- The result array after the launch: `lin` of the features and the weights as the launch finds them. -/
theorem final (c : Dev nD) : (dat2 V c).arrAt 2 cfg2.N = lin (featArr V c) (wtArr V c) :=
  (dat2 V c).arrAt_eq_of_cover 2 (lin (featArr V c) (wtArr V c)) (fun t _ => flushed_eq V c t) cover

end Cert.KernelIdeal.LinearValue2

end
-- ==== Proof.BiasValue.lean ====
/-
  The fourth launch adds the bias row to every row of the second layer's aggregated features. Its grid has ten
  points; point `t` stages rows `10000·t … 10000·t + 9999` of the [100000, 64] operand, the whole [1, 64] bias row,
  and writes the same rows of the result. Read at an index `(r, q)` the result array therefore ends at
  `a (r, q) + b (0, q)`: one function (`Spec.bias`) of the two arrays the launch finds, whatever they hold.
-/
import proofs.«134592_j20529943675093_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«134592_j20529943675093_1_alg».proof.Proof.Spec

set_option maxRecDepth 16384

noncomputable section

namespace Cert.KernelIdeal.BiasValue

open Cert.KernelIdeal Cert.KernelIdeal.Gen
open Idealize.ShloMosaic Idealize.ShloMosaic.TcCoe Idealize.SL.Sem
open Idealize.ShloMosaic.Pipeline (Dat Cfg Window)
open Idealize.ShloMosaic.ValueIdx

open Cert.KernelIdeal.Spec

variable (V : (c : Dev nD) → (b : Ref sig .tc) → Buf (Elt Ideal) ((c : Thread nD τ).loc b))

/-- The operand array and the bias row as the launch finds them, at their literal types. -/
abbrev opArr (c : Dev nD) : Vec Ideal S100000x64 .f32 := V c main_v61
abbrev rowArr (c : Dev nD) : Vec Ideal S1x64 .f32 := V c main_v62

theorem hz : (![0, 0] : Fin 2 → Nat) = fun _ => 0 := funext fun a => by fin_cases a <;> rfl

/-- The body's stored value at `(p, q)` of the block: the loaded entry plus the bias entry of column `q`. -/
theorem pay_apply (x0 : Vec Ideal S10000x64 .f32) (x1 : Vec Ideal S1x64 .f32) (p : Fin 10000) (q : Fin 64) :
    k3_pay1 x0 x1 (ix2 p q) = x0 (ix2 p q) + x1 (ix2 (0 : Fin 1) q) := by
  unfold k3_pay1
  show shapeCast S10000x64 x0 shapeCasts_S10000x64_S10000x64 (ix2 p q)
      + broadcastTo S10000x64 (shapeCast S1x64 x1 shapeCasts_S1x64_S1x64) broadcasts_S1x64_S10000x64 (ix2 p q) = _
  rw [shapeCast_self, shapeCast_self,
    broadcastTo_apply x1 broadcasts_S1x64_S10000x64 (ix2 p q) (ix2 (0 : Fin 1) q)
      (fun a => by match a with | ⟨0, _⟩ => rfl | ⟨1, _⟩ => rfl)]

/-- The index maps over the grid: the operand and the result move together along the rows, the bias row stays. -/
theorem idx_facts : ∀ t : Fin cfg3.N, win3_0.index t (0 : Fin 2) = win3_2.index t (0 : Fin 2)
    ∧ win3_0.index t (1 : Fin 2) = 0 ∧ win3_2.index t (1 : Fin 2) = 0
    ∧ win3_1.index t (0 : Fin 2) = 0 ∧ win3_1.index t (1 : Fin 2) = 0
    ∧ win3_2.index t (0 : Fin 2) = t.val :=
  (by decide +kernel : ∀ t : Fin grid3.N, _)

/-- What point `t` writes back is block `t` of `bias` of the two arrays as the launch finds them. -/
theorem flushed_eq (c : Dev nD) (t : Fin cfg3.N) :
    (dat3 V c).flushed 2 t = ((cfg3.win 2).blk t).view.read (Elt Ideal) (bias (opArr V c) (rowArr V c)) := by
  show (cfg3.win 2).cut (grid3.coords t) ((dat3 V c).after 2 t) = _
  rw [after3_2]
  unfold out3_2
  rw [View.canon_unit_zero hz]
  simp only [View.ld_unit_zero (S := S10000x64) hz, View.ld_unit_zero (S := S1x64) hz]
  obtain ⟨e0, e1, e2, e3, e4, e5⟩ := idx_facts t
  funext j
  obtain ⟨p, q, rfl⟩ : ∃ (p : Fin 10000) (q : Fin 64), j = ix2 p q := ⟨j 0, j 1, eq_ix2 j⟩
  refine (pay_apply (iblk3 V c 0 t) (iblk3 V c 1 t) p q).trans ?_
  have h0 : ((cfg3.win 0).blk t).view.emb (ix2 p q) = ((cfg3.win 2).blk t).view.emb (ix2 p q) := by
    funext a; apply Fin.ext
    match a with
    | ⟨0, _⟩ => show win3_0.index t (0 : Fin 2) * 10000 + 1 * p.val = win3_2.index t (0 : Fin 2) * 10000 + 1 * p.val; omega
    | ⟨1, _⟩ => show win3_0.index t (1 : Fin 2) * 64 + 1 * q.val = win3_2.index t (1 : Fin 2) * 64 + 1 * q.val; omega
  have h1 : ((cfg3.win 1).blk t).view.emb (ix2 (0 : Fin 1) q) = biasAt (((cfg3.win 2).blk t).view.emb (ix2 p q)) := by
    funext a; apply Fin.ext
    match a with
    | ⟨0, _⟩ => show win3_1.index t (0 : Fin 2) * 1 + 1 * 0 = 0; omega
    | ⟨1, _⟩ => show win3_1.index t (1 : Fin 2) * 64 + 1 * q.val = win3_2.index t (1 : Fin 2) * 64 + 1 * q.val; omega
  have hA : iblk3 V c 0 t (ix2 p q) = opArr V c (((cfg3.win 2).blk t).view.emb (ix2 p q)) :=
    (show opArr V c (((cfg3.win 0).blk t).view.emb (ix2 p q)) = _ from congrArg (opArr V c) h0)
  have hB : iblk3 V c 1 t (ix2 (0 : Fin 1) q) = rowArr V c (biasAt (((cfg3.win 2).blk t).view.emb (ix2 p q))) :=
    (show rowArr V c (((cfg3.win 1).blk t).view.emb (ix2 (0 : Fin 1) q)) = _ from congrArg (rowArr V c) h1)
  rw [hA, hB]
  rfl

/-- An index of the array is in point `t`'s block iff each coordinate is in the block's range on its axis. -/
theorem mem_blk (t : Fin cfg3.N) (i : S100000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v63).slice (win3_2.rect t)).set ↔ _
  rw [View.set_slice_whole, Rect.mem_set_unit]
  exact Iff.rfl

/-- Every index of the result lies in the block of the point that owns its row: point `r / 10000`. -/
theorem cover (i : S100000x64.Idx) : ∃ t : Fin cfg3.N, (cfg3.win 2).flush t = true ∧ i ∈ ((cfg3.win 2).blk t).view.set := by
  have hi0 : (i 0).val < 100000 := idx2_lt0 i
  have hi1 : (i 1).val < 64 := idx2_lt1 i
  let t : Fin cfg3.N := ⟨(i 0).val / 10000, by rw [show cfg3.N = 10 from N_3]; omega⟩
  obtain ⟨e0, e1, e2, e3, e4, e5⟩ := idx_facts t
  have e5' : win3_2.index t (0 : Fin 2) = (i 0).val / 10000 := e5
  refine ⟨t, flush3_2 t, ?_⟩
  rw [mem_blk]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 64 ≤ (i 1).val ∧ (i 1).val < win3_2.index t (1 : Fin 2) * 64 + 64; omega

/-- The result array after the launch: `bias` of the operand array and the bias row as the launch finds them. -/
theorem final (c : Dev nD) : (dat3 V c).arrAt 2 cfg3.N = bias (opArr V c) (rowArr V c) :=
  (dat3 V c).arrAt_eq_of_cover 2 (bias (opArr V c) (rowArr V c)) (fun t _ => flushed_eq V c t) cover

end Cert.KernelIdeal.BiasValue

end
-- ==== Proof.DecodeValue.lean ====
/-
  The fifth launch scores the pairs: ten grid points, point `t` staging rows `20000·t … 20000·t + 19999` of the two
  [200000, 64] arrays of endpoint rows, multiplying them entry by entry, summing each row's 64 products and writing
  the sums as rows `20000·t …` of the [200000, 1] result. Row `e` of the result array is therefore
  `∑ k, a (e, k) · b (e, k)`: `Spec.decode` of the two arrays the launch finds.
-/
import proofs.«134592_j20529943675093_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«134592_j20529943675093_1_alg».proof.Proof.Spec

set_option maxRecDepth 16384

noncomputable section

namespace Cert.KernelIdeal.DecodeValue

open Cert.KernelIdeal Cert.KernelIdeal.Gen
open Idealize.ShloMosaic Idealize.ShloMosaic.TcCoe Idealize.SL.Sem
open Idealize.ShloMosaic.Pipeline (Dat Cfg Window)
open Idealize.ShloMosaic.ValueIdx

open Cert.KernelIdeal.Spec

variable (V : (c : Dev nD) → (b : Ref sig .tc) → Buf (Elt Ideal) ((c : Thread nD τ).loc b))

/-- The two arrays of endpoint rows as the launch finds them, at their literal types. -/
abbrev firstArr (c : Dev nD) : Vec Ideal S200000x64 .f32 := V c main_v73
abbrev secondArr (c : Dev nD) : Vec Ideal S200000x64 .f32 := V c main_v82

theorem hz : (![0, 0] : Fin 2 → Nat) = fun _ => 0 := funext fun a => by fin_cases a <;> rfl

/-- The body's stored value at row `p` of the block: the sum over the 64 lanes of the products of the two staged rows. -/
theorem pay_apply (x0 x1 : Vec Ideal S20000x64 .f32) (p : Fin 20000) :
    k4_pay1 x0 x1 (ix2 p (0 : Fin 1)) = ∑ k : Fin 64, x0 (ix2 p k) * x1 (ix2 p k) := by
  unfold k4_pay1
  dsimp only
  rw [shapeCast_self, shapeCast_self]
  refine (shapeCast_apply _ shapeCasts_S20000_S20000x1 (ix2 p (0 : Fin 1)) (ix1 p) ?_).trans ?_
  · rw [Shape.rowMajor_val_one, Shape.rowMajor_val_two]
    show p.val = p.val * 1 + 0
    omega
  · refine (Ideal.multiReduction_add_single (mulf x0 x1) 0x00000000#32 reduces_S20000x64_S20000 _ _ (ix1 p)).trans ?_
    refine Finset.sum_congr rfl fun k _ => ?_
    have e : reduces_S20000x64_S20000.lift (ix1 p) k = ix2 p k := funext fun a => Fin.ext (by
      match a with
      | ⟨0, _⟩ => rfl
      | ⟨1, _⟩ => rfl)
    show x0 (reduces_S20000x64_S20000.lift (ix1 p) k) * x1 (reduces_S20000x64_S20000.lift (ix1 p) k) = _
    rw [e]
    rfl

/-- The index maps over the grid: the two operands and the result move together along the rows. -/
theorem idx_facts : ∀ t : Fin cfg4.N, win4_0.index t (0 : Fin 2) = win4_2.index t (0 : Fin 2)
    ∧ win4_1.index t (0 : Fin 2) = win4_2.index t (0 : Fin 2)
    ∧ win4_0.index t (1 : Fin 2) = 0 ∧ win4_1.index t (1 : Fin 2) = 0 ∧ win4_2.index t (1 : Fin 2) = 0
    ∧ win4_2.index t (0 : Fin 2) = t.val :=
  (by decide +kernel : ∀ t : Fin grid4.N, _)

/-- What point `t` writes back is block `t` of `decode` of the two arrays as the launch finds them. -/
theorem flushed_eq (c : Dev nD) (t : Fin cfg4.N) :
    (dat4 V c).flushed 2 t = ((cfg4.win 2).blk t).view.read (Elt Ideal) (decode (firstArr V c) (secondArr V c)) := by
  show (cfg4.win 2).cut (grid4.coords t) ((dat4 V c).after 2 t) = _
  rw [after4_2]
  unfold out4_2
  rw [View.canon_unit_zero hz]
  simp only [View.ld_unit_zero (S := S20000x64) hz]
  obtain ⟨e0, e1, e2, e3, e4, e5⟩ := idx_facts t
  funext j
  obtain ⟨p, z, rfl⟩ : ∃ (p : Fin 20000) (z : Fin 1), j = ix2 p z := ⟨j 0, j 1, eq_ix2 j⟩
  obtain rfl : z = 0 := Subsingleton.elim _ _
  refine (pay_apply (iblk4 V c 0 t) (iblk4 V c 1 t) p).trans ?_
  show _ = ∑ k : Fin 64, firstArr V c (pairAt (((cfg4.win 2).blk t).view.emb (ix2 p (0 : Fin 1))) k) * secondArr V c (pairAt (((cfg4.win 2).blk t).view.emb (ix2 p (0 : Fin 1))) k)
  refine Finset.sum_congr rfl fun k _ => ?_
  have h0 : ((cfg4.win 0).blk t).view.emb (ix2 p k) = pairAt (((cfg4.win 2).blk t).view.emb (ix2 p (0 : Fin 1))) k := by
    funext a; apply Fin.ext
    match a with
    | ⟨0, _⟩ => show win4_0.index t (0 : Fin 2) * 20000 + 1 * p.val = win4_2.index t (0 : Fin 2) * 20000 + 1 * p.val; omega
    | ⟨1, _⟩ => show win4_0.index t (1 : Fin 2) * 64 + 1 * k.val = k.val; omega
  have h1 : ((cfg4.win 1).blk t).view.emb (ix2 p k) = pairAt (((cfg4.win 2).blk t).view.emb (ix2 p (0 : Fin 1))) k := by
    funext a; apply Fin.ext
    match a with
    | ⟨0, _⟩ => show win4_1.index t (0 : Fin 2) * 20000 + 1 * p.val = win4_2.index t (0 : Fin 2) * 20000 + 1 * p.val; omega
    | ⟨1, _⟩ => show win4_1.index t (1 : Fin 2) * 64 + 1 * k.val = k.val; omega
  have hA : iblk4 V c 0 t (ix2 p k) = firstArr V c (pairAt (((cfg4.win 2).blk t).view.emb (ix2 p (0 : Fin 1))) k) :=
    (show firstArr V c (((cfg4.win 0).blk t).view.emb (ix2 p k)) = _ from congrArg (firstArr V c) h0)
  have hB : iblk4 V c 1 t (ix2 p k) = secondArr V c (pairAt (((cfg4.win 2).blk t).view.emb (ix2 p (0 : Fin 1))) k) :=
    (show secondArr V c (((cfg4.win 1).blk t).view.emb (ix2 p k)) = _ from congrArg (secondArr V c) h1)
  rw [hA, hB]

/-- An index of the array is in point `t`'s block iff each coordinate is in the block's range on its axis. -/
theorem mem_blk (t : Fin cfg4.N) (i : S200000x1.Idx) :
    i ∈ ((cfg4.win 2).blk t).view.set ↔ ∀ a : Fin 2, win4_2.index t a * S20000x1.size a ≤ (i a).val ∧ (i a).val < win4_2.index t a * S20000x1.size a + S20000x1.size a := by
  show i ∈ ((View.whole main_v83).slice (win4_2.rect t)).set ↔ _
  rw [View.set_slice_whole, Rect.mem_set_unit]
  exact Iff.rfl

/-- Every row of the result lies in the block of the point that owns it: point `e / 20000`. -/
theorem cover (i : S200000x1.Idx) : ∃ t : Fin cfg4.N, (cfg4.win 2).flush t = true ∧ i ∈ ((cfg4.win 2).blk t).view.set := by
  have hi0 : (i 0).val < 200000 := idx2_lt0 i
  have hi1 : (i 1).val < 1 := idx2_lt1 i
  let t : Fin cfg4.N := ⟨(i 0).val / 20000, by rw [show cfg4.N = 10 from N_4]; omega⟩
  obtain ⟨e0, e1, e2, e3, e4, e5⟩ := idx_facts t
  have e5' : win4_2.index t (0 : Fin 2) = (i 0).val / 20000 := e5
  refine ⟨t, flush4_2 t, ?_⟩
  rw [mem_blk]
  intro a
  match a with
  | ⟨0, _⟩ => show win4_2.index t (0 : Fin 2) * 20000 ≤ (i 0).val ∧ (i 0).val < win4_2.index t (0 : Fin 2) * 20000 + 20000; omega
  | ⟨1, _⟩ => show win4_2.index t (1 : Fin 2) * 1 ≤ (i 1).val ∧ (i 1).val < win4_2.index t (1 : Fin 2) * 1 + 1; omega

/-- The result array after the launch: `decode` of the two arrays of endpoint rows as the launch finds them. -/
theorem final (c : Dev nD) : (dat4 V c).arrAt 2 cfg4.N = decode (firstArr V c) (secondArr V c) :=
  (dat4 V c).arrAt_eq_of_cover 2 (decode (firstArr V c) (secondArr V c)) (fun t _ => flushed_eq V c t) cover

end Cert.KernelIdeal.DecodeValue

end
-- ==== Proof.KernelValue.lean ====
/-
  What the kernel program leaves in its result array, as one function of its eight argument arrays.
  The program's run is a fold through its segments: a stretch of host operations rewrites the buffers it names, a
  launch replaces its result array by what its write-backs leave and keeps every other buffer. Read back from the
  last boundary, the result is the reshaped column of pair scores; the scores are the fifth launch's function of the
  two gathered arrays of endpoint rows; those rows come from the fourth launch's result, and so on down to the
  arguments: each launch's array by its value module, each stretch by `Carry`.
-/
import proofs.«134592_j20529943675093_1_alg».proof.Proof.Gen.KernelIdeal.Frame
import proofs.«134592_j20529943675093_1_alg».proof.Proof.Chain
import proofs.«134592_j20529943675093_1_alg».proof.Proof.Spec
import proofs.«134592_j20529943675093_1_alg».proof.Proof.Carry
import proofs.«134592_j20529943675093_1_alg».proof.Proof.LinearValue0
import proofs.«134592_j20529943675093_1_alg».proof.Proof.BiasReluValue
import proofs.«134592_j20529943675093_1_alg».proof.Proof.LinearValue2
import proofs.«134592_j20529943675093_1_alg».proof.Proof.BiasValue
import proofs.«134592_j20529943675093_1_alg».proof.Proof.DecodeValue

set_option maxRecDepth 16384

noncomputable section

namespace Cert.KernelIdeal.KernelValue

open Cert.KernelIdeal Cert.KernelIdeal.Gen Cert.KernelIdeal.Chain Cert.KernelIdeal.Spec Cert.KernelIdeal.Carry
open Idealize.ShloMosaic Idealize.ShloMosaic.TcCoe Idealize.SL.Sem

/-- The kernel program's result as a function of its arguments: two rounds of (dense transform, message passing,
    bias), the first clamped at zero, then the pair scores, reshaped to a vector. -/
def kernelResult (x : (⟨S100000x64, .f32⟩ : BufTy).Contents (Elt Ideal)) (e : (⟨S2x1200000, .i32⟩ : BufTy).Contents (Elt Ideal))
    (p n : (⟨S2x100000, .i32⟩ : BufTy).Contents (Elt Ideal)) (w1 : (⟨S64x64, .f32⟩ : BufTy).Contents (Elt Ideal))
    (b1 : (⟨S64, .f32⟩ : BufTy).Contents (Elt Ideal)) (w2 : (⟨S64x64, .f32⟩ : BufTy).Contents (Elt Ideal))
    (b2 : (⟨S64, .f32⟩ : BufTy).Contents (Elt Ideal)) : (⟨S200000, .f32⟩ : BufTy).Contents (Elt Ideal) :=
  let z1 := biasRelu (aggregate (lin x w1) (srcOf e) (dstOf e) (weightsOf e)) (shapeCast S1x64 b1 shapeCasts_S64_S1x64)
  let z2 := bias (aggregate (lin z1 w2) (srcOf e) (dstOf e) (weightsOf e)) (shapeCast S1x64 b2 shapeCasts_S64_S1x64)
  shapeCast S200000 (decode (firstRows z2 (pairsOf p n)) (secondRows z2 (pairsOf p n))) shapeCasts_S200000x1_S200000

variable (m : (ℓ : Loc nD τ sig) → Buf (Elt Ideal) ℓ) (ρ : Dev nD → PrngReg) (c : Dev nD)

/-! ## The five launches' result arrays at the boundaries after them -/

theorem W4_h1 : W4 m ρ c (Proc.devRef .tc main_v32) = lin (W3 m ρ c (Proc.devRef .tc main_arg0)) (W3 m ρ c (Proc.devRef .tc main_arg4)) :=
  (W4_arr m ρ c 2).trans (LinearValue0.final (V3 m ρ) c)
theorem W6_z1 : W6 m ρ c (Proc.devRef .tc main_v47) = biasRelu (W5 m ρ c (Proc.devRef .tc main_v45)) (W5 m ρ c (Proc.devRef .tc main_v46)) :=
  (W6_arr m ρ c 2).trans (BiasReluValue.final (V5 m ρ) c)
theorem W7_h2 : W7 m ρ c (Proc.devRef .tc main_v48) = lin (W6 m ρ c (Proc.devRef .tc main_v47)) (W6 m ρ c (Proc.devRef .tc main_arg6)) :=
  (W7_arr m ρ c 2).trans (LinearValue2.final (V6 m ρ) c)
theorem W9_z2 : W9 m ρ c (Proc.devRef .tc main_v63) = bias (W8 m ρ c (Proc.devRef .tc main_v61)) (W8 m ρ c (Proc.devRef .tc main_v62)) :=
  (W9_arr m ρ c 2).trans (BiasValue.final (V8 m ρ) c)
theorem W11_scores : W11 m ρ c (Proc.devRef .tc main_v83) = decode (W10 m ρ c (Proc.devRef .tc main_v73)) (W10 m ρ c (Proc.devRef .tc main_v82)) :=
  (W11_arr m ρ c 2).trans (DecodeValue.final (V10 m ρ) c)

/-! ## The whole fold -/

/-- The kernel program's result array at the last boundary is `kernelResult` of the launch contents of its arguments. -/
theorem result : W12 m ρ c (Proc.devRef .tc main_v84)
    = kernelResult (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7)) := by
  rw [W12_out, W11_scores, W10_first, W10_second, W9_z2, W9_arg2, W9_arg3, W8_arg2, W8_arg3, W8_agg, W8_row,
    W7_h2, W7_src, W7_dst, W7_wts, W7_arg2, W7_arg3, W7_arg7, W6_z1, W6_src, W6_dst, W6_wts, W6_arg2, W6_arg3, W6_arg6, W6_arg7,
    W5_agg, W5_row, W5_src, W5_dst, W5_wts, W5_arg2, W5_arg3, W5_arg6, W5_arg7,
    W4_h1, W4_src, W4_dst, W4_wts, W4_arg2, W4_arg3, W4_arg5, W4_arg6, W4_arg7,
    W3_src, W3_dst, W3_wts, W3_arg0, W3_arg2, W3_arg3, W3_arg4, W3_arg5, W3_arg6, W3_arg7]
  rfl

end Cert.KernelIdeal.KernelValue

end
-- ==== Proof.RefValue.lean ====
/-
  The reference program's result, as the generated run states it, folded into named pieces: the graph part and the
  decode part are the very terms the kernel program applies (`Chain`), and in place of each launch the reference
  has plain host operations: a `dot_general` (`dense`), an add of the bias broadcast along the rows (`addRow`),
  a maximum with the zero broadcast (`clamp`), and a row sum of the product of the two gathered arrays (`score`).
-/
import proofs.«134592_j20529943675093_1_alg».proof.Proof.RefRun
import proofs.«134592_j20529943675093_1_alg».proof.Proof.Chain

set_option maxRecDepth 16384

noncomputable section

namespace Cert.ReferenceIdeal.RefValue

open Cert.ReferenceIdeal Cert.ReferenceIdeal.Gen
open Idealize.ShloMosaic Idealize.ShloMosaic.TcCoe Idealize.SL.Sem
open Cert.KernelIdeal.Chain (srcOf dstOf weightsOf aggregate pairsOf firstRows secondRows)

variable {F : FTy → Type} [FloatOps F]

/-- The reference's dense transform: jnp's matrix product on the host. -/
def dense (x : (⟨S100000x64, .f32⟩ : BufTy).Contents (Elt F)) (w : (⟨S64x64, .f32⟩ : BufTy).Contents (Elt F)) :
    (⟨S100000x64, .f32⟩ : BufTy).Contents (Elt F) :=
  Host.dotGeneral dot_S100000x64_S64x64_S100000x64_1_0_0_1_n_n none x w

/-- The bias vector laid along every row and added. -/
def addRow (a : (⟨S100000x64, .f32⟩ : BufTy).Contents (Elt F)) (b : (⟨S64, .f32⟩ : BufTy).Contents (Elt F)) :
    (⟨S100000x64, .f32⟩ : BufTy).Contents (Elt F) :=
  addf a (broadcastInDim S100000x64 ![0, 1] bcast_S1x64_S100000x64_0_1 (broadcastInDim S1x64 ![1] bcast_S64_S1x64_1 b))

/-- The maximum with zero, entry by entry. -/
def clamp (a : (⟨S100000x64, .f32⟩ : BufTy).Contents (Elt F)) : (⟨S100000x64, .f32⟩ : BufTy).Contents (Elt F) :=
  maximumf a (broadcastInDim S100000x64 ![] bcast_S_S100000x64 (constant S_ .f32 0x00000000#32))

/-- The row sums of the entrywise product of two [200000, 64] arrays, from zero. -/
def score (a b : (⟨S200000x64, .f32⟩ : BufTy).Contents (Elt F)) : (⟨S200000, .f32⟩ : BufTy).Contents (Elt F) :=
  Host.reduceAdd (mulf a b) (constant S_ .f32 0x00000000#32) reducesTo_S200000x64_S200000_d1 h_S_

/-- The reference program's result as a function of its arguments. -/
def referenceResult (x : (⟨S100000x64, .f32⟩ : BufTy).Contents (Elt F)) (e : (⟨S2x1200000, .i32⟩ : BufTy).Contents (Elt F))
    (p n : (⟨S2x100000, .i32⟩ : BufTy).Contents (Elt F)) (w1 : (⟨S64x64, .f32⟩ : BufTy).Contents (Elt F))
    (b1 : (⟨S64, .f32⟩ : BufTy).Contents (Elt F)) (w2 : (⟨S64x64, .f32⟩ : BufTy).Contents (Elt F))
    (b2 : (⟨S64, .f32⟩ : BufTy).Contents (Elt F)) : (⟨S200000, .f32⟩ : BufTy).Contents (Elt F) :=
  let z1 := clamp (addRow (aggregate (dense x w1) (srcOf e) (dstOf e) (weightsOf e)) b1)
  let z2 := addRow (aggregate (dense z1 w2) (srcOf e) (dstOf e) (weightsOf e)) b2
  score (firstRows z2 (pairsOf p n)) (secondRows z2 (pairsOf p n))

/-- The generated run's composed term is that function of the launch contents of the arguments: the same operations
    in the same order, read off by unfolding the names. -/
theorem res_eq (m : (ℓ : Loc nD τ sig) → Buf (Elt F) ℓ) (c : Dev nD) :
    Cert.ReferenceIdeal.RunPatched.res_main_v87 (F := F) m c
      = referenceResult (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6)) (m ((c.tc : Thread nD τ).loc main_arg7)) := by
  unfold Cert.ReferenceIdeal.RunPatched.res_main_v87
  rfl

end Cert.ReferenceIdeal.RefValue

end
-- ==== Proof.Bridge.lean ====
/-
  The four places where the two programs differ, each an identity between functions on the extended reals:
  a launch's function (`Spec`) against the host operations the reference has in its place (`RefValue`).
  The dense transform is the host's matrix product, the same sum over k at every entry; the bias launches read
  the [64] bias through a [1, 64] reshape where the reference broadcasts it along the rows, the same entry `b q`
  at every (r, q), and the clamp's zero is the zero constant broadcast; the decode launch's row sums, reshaped
  from a column to a vector, are the host's row sums from zero. No law beyond `0 + s = s` is used, so nothing
  here asks the inputs to be finite.
-/
import proofs.«134592_j20529943675093_1_alg».proof.Proof.Spec
import proofs.«134592_j20529943675093_1_alg».proof.Proof.RefValue
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Bridge

open Idealize.ShloMosaic Idealize.SL.Sem
open Idealize.ShloMosaic.ValueIdx
open Cert.KernelIdeal.Spec
open Cert.ReferenceIdeal.RefValue (dense addRow clamp score)

abbrev KS100000x64 := Cert.KernelIdeal.S100000x64
abbrev KS64x64 := Cert.KernelIdeal.S64x64
abbrev KS64 := Cert.KernelIdeal.S64
abbrev KS1x64 := Cert.KernelIdeal.S1x64
abbrev KS200000x64 := Cert.KernelIdeal.S200000x64
abbrev KS200000x1 := Cert.KernelIdeal.S200000x1
abbrev KS200000 := Cert.KernelIdeal.S200000

/-! ## The dense transform -/

theorem lhs_0 (i : KS100000x64.Idx) (q : Cert.ReferenceIdeal.dot_S100000x64_S64x64_S100000x64_1_0_0_1_n_n.contr.Idx) :
    (Cert.ReferenceIdeal.dot_S100000x64_S64x64_S100000x64_1_0_0_1_n_n.lhsIdx i q 0).val = (i 0).val := by
  unfold DotDims.lhsIdx
  rw [dif_neg (show ¬(0 : Fin Cert.ReferenceIdeal.S100000x64.rank) ∈ Cert.ReferenceIdeal.dot_S100000x64_S64x64_S100000x64_1_0_0_1_n_n.lhsBatch by decide), dif_pos (show (0 : Fin Cert.ReferenceIdeal.S100000x64.rank) ∈ Cert.ReferenceIdeal.dot_S100000x64_S64x64_S100000x64_1_0_0_1_n_n.lhsNonContracting by decide)]
  rfl
theorem lhs_1 (i : KS100000x64.Idx) (q : Cert.ReferenceIdeal.dot_S100000x64_S64x64_S100000x64_1_0_0_1_n_n.contr.Idx) :
    (Cert.ReferenceIdeal.dot_S100000x64_S64x64_S100000x64_1_0_0_1_n_n.lhsIdx i q 1).val = (q ⟨0, by decide⟩).val :=
  Cert.ReferenceIdeal.dot_S100000x64_S64x64_S100000x64_1_0_0_1_n_n.lhsIdx_val_of_single rfl i q
theorem rhs_0 (i : KS100000x64.Idx) (q : Cert.ReferenceIdeal.dot_S100000x64_S64x64_S100000x64_1_0_0_1_n_n.contr.Idx) :
    (Cert.ReferenceIdeal.dot_S100000x64_S64x64_S100000x64_1_0_0_1_n_n.rhsIdx i q 0).val = (q ⟨0, by decide⟩).val :=
  Cert.ReferenceIdeal.dot_S100000x64_S64x64_S100000x64_1_0_0_1_n_n.rhsIdx_val_of_single rfl i q
theorem rhs_1 (i : KS100000x64.Idx) (q : Cert.ReferenceIdeal.dot_S100000x64_S64x64_S100000x64_1_0_0_1_n_n.contr.Idx) :
    (Cert.ReferenceIdeal.dot_S100000x64_S64x64_S100000x64_1_0_0_1_n_n.rhsIdx i q 1).val = (i 1).val := by
  unfold DotDims.rhsIdx
  rw [dif_neg (show ¬(1 : Fin Cert.ReferenceIdeal.S64x64.rank) ∈ Cert.ReferenceIdeal.dot_S100000x64_S64x64_S100000x64_1_0_0_1_n_n.rhsBatch by decide), dif_pos (show (1 : Fin Cert.ReferenceIdeal.S64x64.rank) ∈ Cert.ReferenceIdeal.dot_S100000x64_S64x64_S100000x64_1_0_0_1_n_n.rhsNonContracting by decide)]
  rfl

/-- The launches' dense transform is the host's matrix product: at every entry the sum over k of x (r, k) · w (k, q). -/
theorem lin_eq (x : Vec Ideal KS100000x64 .f32) (w : Vec Ideal KS64x64 .f32) : lin x w = dense (F := Ideal) x w := by
  funext i
  unfold dense lin
  simp only [Host.dotGeneral]
  rw [Ideal.dotGeneral_apply, ← Equiv.sum_comp (contrEquiv1 Cert.ReferenceIdeal.dot_S100000x64_S64x64_S100000x64_1_0_0_1_n_n 64 rfl rfl).symm]
  refine Finset.sum_congr rfl fun k _ => ?_
  have hk := contrEquiv1_symm_val Cert.ReferenceIdeal.dot_S100000x64_S64x64_S100000x64_1_0_0_1_n_n 64 rfl rfl k
  have el : Cert.ReferenceIdeal.dot_S100000x64_S64x64_S100000x64_1_0_0_1_n_n.lhsIdx i ((contrEquiv1 Cert.ReferenceIdeal.dot_S100000x64_S64x64_S100000x64_1_0_0_1_n_n 64 rfl rfl).symm k) = rowAt i k := funext fun a => Fin.ext (by
    match a with
    | ⟨0, _⟩ => exact lhs_0 _ _
    | ⟨1, _⟩ => exact (lhs_1 _ _).trans hk)
  have er : Cert.ReferenceIdeal.dot_S100000x64_S64x64_S100000x64_1_0_0_1_n_n.rhsIdx i ((contrEquiv1 Cert.ReferenceIdeal.dot_S100000x64_S64x64_S100000x64_1_0_0_1_n_n 64 rfl rfl).symm k) = colAt i k := funext fun a => Fin.ext (by
    match a with
    | ⟨0, _⟩ => exact (rhs_0 _ _).trans hk
    | ⟨1, _⟩ => exact rhs_1 _ _)
  rw [el, er]

/-! ## The bias, with and without the clamp -/

/-- The bias read through its [1, 64] reshape at column `q` is the bias at `q`. -/
theorem row_reshape (b : Vec Ideal KS64 .f32) (i : KS100000x64.Idx) :
    shapeCast KS1x64 b Cert.KernelIdeal.Gen.shapeCasts_S64_S1x64 (biasAt i) = b (ix1 (⟨(i 1).val, idx2_lt1 i⟩ : Fin 64)) :=
  shapeCast_a_1a_apply b Cert.KernelIdeal.Gen.shapeCasts_S64_S1x64 (0 : Fin 1) (⟨(i 1).val, idx2_lt1 i⟩ : Fin 64)

/-- The bias broadcast to a row and the row to every row, read at (r, q), is the bias at `q`. -/
theorem row_broadcast (b : Vec Ideal KS64 .f32) (i : KS100000x64.Idx) :
    broadcastInDim Cert.ReferenceIdeal.S100000x64 ![0, 1] Cert.ReferenceIdeal.Gen.bcast_S1x64_S100000x64_0_1
      (broadcastInDim Cert.ReferenceIdeal.S1x64 ![1] Cert.ReferenceIdeal.Gen.bcast_S64_S1x64_1 b) i
      = b (ix1 (⟨(i 1).val, idx2_lt1 i⟩ : Fin 64)) :=
  (broadcastInDim_apply ![0, 1] Cert.ReferenceIdeal.Gen.bcast_S1x64_S100000x64_0_1 _ i
      (ix2 (0 : Fin 1) (⟨(i 1).val, idx2_lt1 i⟩ : Fin 64)) (fun a => by match a with | ⟨0, _⟩ => rfl | ⟨1, _⟩ => rfl)).trans
    (broadcastInDim_apply ![1] Cert.ReferenceIdeal.Gen.bcast_S64_S1x64_1 b (ix2 (0 : Fin 1) (⟨(i 1).val, idx2_lt1 i⟩ : Fin 64))
      (ix1 (⟨(i 1).val, idx2_lt1 i⟩ : Fin 64)) (fun a => by match a with | ⟨0, _⟩ => rfl))

/-- The zero constant broadcast to the whole array is the clamp's zero at every entry. -/
theorem zero_broadcast (i : KS100000x64.Idx) :
    broadcastInDim Cert.ReferenceIdeal.S100000x64 ![] Cert.ReferenceIdeal.Gen.bcast_S_S100000x64
      (constant (F := Ideal) Cert.ReferenceIdeal.S_ .f32 0x00000000#32) i = Ideal.ofBits .f32 0x00000000#32 :=
  broadcastInDim_apply ![] Cert.ReferenceIdeal.Gen.bcast_S_S100000x64 _ i ix0 (fun a => a.elim0)

/-- The bias launch is the reference's add of the broadcast bias. -/
theorem bias_eq (a : Vec Ideal KS100000x64 .f32) (b : Vec Ideal KS64 .f32) :
    bias a (shapeCast KS1x64 b Cert.KernelIdeal.Gen.shapeCasts_S64_S1x64) = addRow (F := Ideal) a b := by
  funext i
  unfold bias addRow
  refine (congrArg (a i + ·) (row_reshape b i)).trans ?_
  exact (congrArg (a i + ·) (row_broadcast b i)).symm

/-- The bias-and-clamp launch is the reference's add of the broadcast bias followed by its maximum with zero. -/
theorem biasRelu_eq (a : Vec Ideal KS100000x64 .f32) (b : Vec Ideal KS64 .f32) :
    biasRelu a (shapeCast KS1x64 b Cert.KernelIdeal.Gen.shapeCasts_S64_S1x64) = clamp (F := Ideal) (addRow (F := Ideal) a b) := by
  funext i
  unfold biasRelu clamp addRow
  show max (a i + shapeCast KS1x64 b Cert.KernelIdeal.Gen.shapeCasts_S64_S1x64 (biasAt i)) (Ideal.ofBits .f32 0x00000000#32)
    = max (a i + broadcastInDim Cert.ReferenceIdeal.S100000x64 ![0, 1] Cert.ReferenceIdeal.Gen.bcast_S1x64_S100000x64_0_1
        (broadcastInDim Cert.ReferenceIdeal.S1x64 ![1] Cert.ReferenceIdeal.Gen.bcast_S64_S1x64_1 b) i)
      (broadcastInDim Cert.ReferenceIdeal.S100000x64 ![] Cert.ReferenceIdeal.Gen.bcast_S_S100000x64
        (constant (F := Ideal) Cert.ReferenceIdeal.S_ .f32 0x00000000#32) i)
  rw [row_reshape, row_broadcast, zero_broadcast]

/-! ## The pair scores -/

/-- The decode launch's column of row sums, reshaped to a vector, is the host's row sum from zero. -/
theorem decode_eq (a b : Vec Ideal KS200000x64 .f32) :
    shapeCast KS200000 (decode a b) Cert.KernelIdeal.Gen.shapeCasts_S200000x1_S200000 = score (F := Ideal) a b := by
  funext i
  obtain ⟨e, rfl⟩ : ∃ e : Fin 200000, i = ix1 e := ⟨i 0, eq_ix1 i⟩
  refine (shapeCast_apply (decode a b) Cert.KernelIdeal.Gen.shapeCasts_S200000x1_S200000 (ix1 e) (ix2 e (0 : Fin 1)) ?_).trans ?_
  · rw [Shape.rowMajor_val_one, Shape.rowMajor_val_two]
    show e.val * 1 + 0 = e.val
    omega
  · unfold score decode
    generalize hy : mulf (F := Ideal) a b = y
    simp only [Host.reduceAdd, Ideal.hostReduceAdd_def]
    rw [Ideal.hostReduceAdd_single Cert.ReferenceIdeal.Gen.reducesTo_S200000x64_S200000_d1 (by decide)]
    have hz : constant (F := Ideal) Cert.ReferenceIdeal.S_ .f32 0x00000000#32 (Shape.Idx.first Cert.ReferenceIdeal.Gen.h_S_) = 0 :=
      Ideal.ofBits_zero_f32
    rw [hz, zero_add]
    refine Finset.sum_congr rfl fun k _ => ?_
    subst hy
    exact congrArg (fun j => a j * b j) (funext fun d => Fin.ext (by match d with | ⟨0, _⟩ => rfl | ⟨1, _⟩ => rfl))

end Cert.Bridge

end
-- ==== Proof.lean ====
/-
  A two-layer graph convolution followed by a dot-product edge decoder, as five launches among host gathers and
  scatter-adds, against the same network written in plain array operations.

  Both programs compute the graph's normalised edge weights, and for each layer (dense transform, gather the source
  rows, scale, add into the destination rows, add the bias), clamping the first layer at zero; then they gather the
  two endpoint rows of each of the 200000 candidate pairs and take their inner product. The programs share every host
  operation of the graph part and of the decode part; they differ in five places, where the kernel program has a
  launch: two matrix products (the operands narrowed, which is the identity on the extended reals), a bias add with
  a clamp, a bias add, and the row sums of a product. Each launch's result array is one function of the arrays it
  finds (the five value modules), the run's fold through the segments composes them (`KernelValue`), the reference's
  generated run is the same composition over host operations (`RefValue`), and the two compositions agree piece by
  piece (`Bridge`). The laws used are the sum's own (`0 + s = s`, re-indexing), so the inputs' finiteness is not used.
  The three frames are the generated frame certificates and the reference's run; the idealization rewrote nothing.
-/
import proofs.«134592_j20529943675093_1_alg».proof.Defs
import proofs.«134592_j20529943675093_1_alg».proof.Proof.Gen.Kernel
import proofs.«134592_j20529943675093_1_alg».proof.Proof.Gen.Kernel.Frame
import proofs.«134592_j20529943675093_1_alg».proof.Proof.Gen.KernelIdeal
import proofs.«134592_j20529943675093_1_alg».proof.Proof.Gen.KernelIdeal.Frame
import proofs.«134592_j20529943675093_1_alg».proof.Proof.Gen.ReferenceIdeal
import proofs.«134592_j20529943675093_1_alg».proof.Proof.Gen.Pre_finite_inputs
import proofs.«134592_j20529943675093_1_alg».proof.Proof.ResultRun
import proofs.«134592_j20529943675093_1_alg».proof.Proof.KernelValue
import proofs.«134592_j20529943675093_1_alg».proof.Proof.RefValue
import proofs.«134592_j20529943675093_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem
open Cert.KernelIdeal.KernelValue (kernelResult)
open Cert.ReferenceIdeal.RefValue (referenceResult)

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RunPatched.run (F := Ideal) m ρ)

/-- The ideal pass rewrote no operation: nothing to restate. -/
theorem preserves : Cert.preserves_Kernel_KernelIdeal := trivial

/-- The two programs' results are one function of the arguments: the launches' functions are the reference's host
    operations, piece by piece, inside the same graph and decode operations. -/
theorem results_eq (x : (⟨Cert.KernelIdeal.S100000x64, .f32⟩ : BufTy).Contents (Elt Ideal))
    (e : (⟨Cert.KernelIdeal.S2x1200000, .i32⟩ : BufTy).Contents (Elt Ideal))
    (p n : (⟨Cert.KernelIdeal.S2x100000, .i32⟩ : BufTy).Contents (Elt Ideal))
    (w1 : (⟨Cert.KernelIdeal.S64x64, .f32⟩ : BufTy).Contents (Elt Ideal)) (b1 : (⟨Cert.KernelIdeal.S64, .f32⟩ : BufTy).Contents (Elt Ideal))
    (w2 : (⟨Cert.KernelIdeal.S64x64, .f32⟩ : BufTy).Contents (Elt Ideal)) (b2 : (⟨Cert.KernelIdeal.S64, .f32⟩ : BufTy).Contents (Elt Ideal)) :
    kernelResult x e p n w1 b1 w2 b2 = referenceResult (F := Ideal) x e p n w1 b1 w2 b2 := by
  unfold kernelResult referenceResult
  dsimp only
  rw [Cert.Bridge.lin_eq, Cert.Bridge.biasRelu_eq, Cert.Bridge.lin_eq, Cert.Bridge.bias_eq, Cert.Bridge.decode_eq]

theorem algebraic : Cert.algebraic_KernelIdeal_ReferenceIdeal := by
  intro m ρ m' ρ' _ hagree
  refine ⟨fun c => kernelResult (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.KernelValue.result m ρ c), (h c).2⟩)
      (Cert.KernelIdeal.ResultRun.run_result (F := Ideal) m ρ)
  · refine (θ_run Cert.ReferenceIdeal.defs _ _).mono (fun r h c => ⟨(h c).1.trans ?_, (h c).2⟩)
      (Cert.ReferenceIdeal.RunPatched.run (F := Ideal) m' ρ')
    rw [Cert.ReferenceIdeal.RefValue.res_eq, (hagree c).1, (hagree c).2.1, (hagree c).2.2.1, (hagree c).2.2.2.1,
      (hagree c).2.2.2.2.1, (hagree c).2.2.2.2.2.1, (hagree c).2.2.2.2.2.2.1, (hagree c).2.2.2.2.2.2.2]
    exact (results_eq _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
